-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8x8x128 : Shape := ⟨3, ![8, 8, 128]⟩
abbrev S1024x512 : Shape := ⟨2, ![1024, 512]⟩
abbrev S1024x1 : Shape := ⟨2, ![1024, 1]⟩
abbrev S1x1024 : Shape := ⟨2, ![1, 1024]⟩
abbrev S1x8x128 : Shape := ⟨3, ![1, 8, 128]⟩
abbrev S8x128 : Shape := ⟨2, ![8, 128]⟩
abbrev S1024x1024 : Shape := ⟨2, ![1024, 1024]⟩
abbrev S1024 : Shape := ⟨1, ![1024]⟩
abbrev S1 : Shape := ⟨1, ![1]⟩
abbrev S1x1 : Shape := ⟨2, ![1, 1]⟩
abbrev S8x1x1 : Shape := ⟨3, ![8, 1, 1]⟩
abbrev S8 : Shape := ⟨1, ![8]⟩

abbrev nBuf : Space → Nat
  | .hbm => 22
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .bf16⟩
  | .hbm, ⟨13, _⟩ => ⟨S8192x1, .i32⟩
  | .hbm, ⟨14, _⟩ => ⟨S1x8192, .i32⟩
  | .hbm, ⟨15, _⟩ => ⟨S8x8x128, .f32⟩
  | .hbm, ⟨16, _⟩ => ⟨S8x1x1, .f32⟩
  | .hbm, ⟨17, _⟩ => ⟨S8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1x8x128, .f32⟩
  | .local _ .vmem, ⟨9, _⟩ => ⟨S1x8x128, .f32⟩
  | .local _ .vmem, ⟨10, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  shapeCasts_S8192_S8192x1 : S8192.ShapeCasts S8192x1
  shapeCasts_S8192_S1x8192 : S8192.ShapeCasts S1x8192
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S8x8x128.size a
  hwx0_4 : ∀ i : grid0.Coords, EltTy.bits .f32 = 32 ∨ (Rect.block (s := S8x8x128) S1x8x128.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v5) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S512x8192, .f32⟩
  | .hbm, ⟨13, _⟩ => ⟨S8192x8192, .f32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_call2_v0 : Ref sig .tc := ⟨.hbm, 35, rfl⟩
abbrev main_call2_v1 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Kernel.Entry.lean ====
import proofs.«166555_j42846593744919_1_alg».proof.Proof.Gen.Kernel.Launch
import proofs.«166555_j42846593744919_1_alg».proof.Proof.Gen.Kernel.Skeleton
import proofs.«166555_j42846593744919_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the host operations before it applied to the launch memory. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- No host operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched its block index has not moved), for any proof data whose array is the entry contents and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.Kernel.Cases.lean ====
import proofs.«166555_j42846593744919_1_alg».proof.Proof.Kernel.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The first conditional's condition (column coordinate = 0), from the grid coordinates. -/
abbrev cond0 (i : grid0.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-- The second conditional's condition (column coordinate = 7). -/
abbrev cond1 (i : grid0.Coords) : Prop := k0_cond2 i = 1#1
/-- It holds at the points ≡ 7 (mod 8). -/
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- In the first and the middle columns the output window is idle and is not written back. -/
theorem idleAt4_A : ∀ t : Fin cfg0.N, cond0 (grid0.coords t) → ¬cond1 (grid0.coords t) → cfg0.idle 4 (grid0.coords t) = true := by decide +kernel
theorem noFlush4_A : ∀ t : Fin cfg0.N, cond0 (grid0.coords t) → ¬cond1 (grid0.coords t) → (cfg0.win 4).flush t = false := by decide +kernel
theorem idleAt4_B : ∀ t : Fin cfg0.N, ¬cond0 (grid0.coords t) → ¬cond1 (grid0.coords t) → cfg0.idle 4 (grid0.coords t) = true := by decide +kernel
theorem noFlush4_B : ∀ t : Fin cfg0.N, ¬cond0 (grid0.coords t) → ¬cond1 (grid0.coords t) → (cfg0.win 4).flush t = false := by decide +kernel
/-- In the last column the body stores into it. -/
theorem liveAt4_C : ∀ t : Fin cfg0.N, ¬cond0 (grid0.coords t) → cond1 (grid0.coords t) → cfg0.idle 4 (grid0.coords t) = false := by decide +kernel

/-! ## The memrefs the body is called with -/

/-- One staging buffer of the output window, through which its contents are stated. -/
abbrev VO4 : View sig .tc .vmem S1x8x128 .f32 := (Memref.whole cc0_stg4_0 : Memref sig .tc .vmem S1x8x128 .f32).view
/-- Each window's current staging memref at point `t`, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)
/-- The scratch: the running total, a whole scoped buffer of the kernel's own. -/
abbrev scM : Memref sig .tc .vmem S8x128 .f32 := Memref.whole cc0_scratch0
abbrev VS : View sig .tc .vmem S8x128 .f32 := scM.view

/-- The region's plain invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.Kernel.RunA.lean ====
import proofs.«166555_j42846593744919_1_alg».proof.Proof.Kernel.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First-column case (first conditional taken, second not): on whole staging memrefs — the four inputs at their
    contents, the idle output at contents handed back untouched, the scratch at anything — the body runs to the
    continuation holding the inputs and the output as they were and the scratch with its pieces written. -/
noncomputable def kernelRun_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : cond0 i) (hc1 : ¬cond1 i)
    (x0 : Vec F S1024x512 .bf16) (x1 : Vec F S1024x512 .bf16) (x2 : Vec F S1024x1 .i32) (x3 : Vec F S1x1024 .i32) :
    Σ' (L4 : List (View.Piece (Elt F) S1x8x128 .f32)), { LS : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨[], ?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.Kernel.RunB.lean ====
import proofs.«166555_j42846593744919_1_alg».proof.Proof.Kernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle-column case (neither conditional taken): the inputs at their contents, the idle output handed back untouched,
    the scratch at the contents `xs` the point before left; the body leaves the scratch with its pieces written. -/
noncomputable def kernelRun_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : ¬cond1 i)
    (x0 : Vec F S1024x512 .bf16) (x1 : Vec F S1024x512 .bf16) (x2 : Vec F S1024x1 .i32) (x3 : Vec F S1x1024 .i32) (xs : Vec F S8x128 .f32) :
    Σ' (L4 : List (View.Piece (Elt F) S1x8x128 .f32)), { LS : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨[], ?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.Kernel.RunC.lean ====
import proofs.«166555_j42846593744919_1_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last-column case (second conditional taken): the inputs at their contents, the output block at anything, the
    scratch at the contents `xs` the point before left; the body leaves the scratch and the output block each with its
    pieces written. -/
noncomputable def kernelRun_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : cond1 i)
    (x0 : Vec F S1024x512 .bf16) (x1 : Vec F S1024x512 .bf16) (x2 : Vec F S1024x1 .i32) (x3 : Vec F S1x1024 .i32) (xs : Vec F S8x128 .f32) :
    Σ' (L4 : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.Kernel.Body.lean ====
import proofs.«166555_j42846593744919_1_alg».proof.Proof.Kernel.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first-column case stores nothing into the output block: a placeholder nothing consults. -/
def out_A_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : cond0 i) (hc1 : ¬cond1 i)
    (x0 : Vec F S1024x512 .bf16) (x1 : Vec F S1024x512 .bf16) (x2 : Vec F S1024x1 .i32) (x3 : Vec F S1x1024 .i32) : Vec F S1x8x128 .f32 :=
  VO4.read (Elt F) (VO4.writes (Elt F) VO4.junk (kernelRun_A c i arg2 harg2 arg3 harg3 arg4 harg4 arg5 harg5 arg6 harg6 arg7 harg7 hc0 hc1 x0 x1 x2 x3).1)
/-- Its pieces for the scratch cover it. -/
theorem scover_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : cond0 i) (hc1 : ¬cond1 i)
    (x0 : Vec F S1024x512 .bf16) (x1 : Vec F S1024x512 .bf16) (x2 : Vec F S1024x1 .i32) (x3 : Vec F S1x1024 .i32) (y : S8x128.Idx) :
    ∃ pc ∈ (kernelRun_A c i arg2 harg2 arg3 harg3 arg4 harg4 arg5 harg5 arg6 harg6 arg7 harg7 hc0 hc1 x0 x1 x2 x3).2.1, y ∈ pc.1.set :=
  View.cover_of_tiledL (kernelRun_A c i arg2 harg2 arg3 harg3 arg4 harg4 arg5 harg5 arg6 harg6 arg7 harg7 hc0 hc1 x0 x1 x2 x3).2.1 S8x128.size (by sl_kernel_rfl) y
/-- What it leaves in the scratch. -/
def sout_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : cond0 i) (hc1 : ¬cond1 i)
    (x0 : Vec F S1024x512 .bf16) (x1 : Vec F S1024x512 .bf16) (x2 : Vec F S1024x1 .i32) (x3 : Vec F S1x1024 .i32) : Vec F S8x128 .f32 :=
  VS.read (Elt F) (VS.writes (Elt F) VS.junk (kernelRun_A c i arg2 harg2 arg3 harg3 arg4 harg4 arg5 harg5 arg6 harg6 arg7 harg7 hc0 hc1 x0 x1 x2 x3).2.1)

/-- The middle-column case stores nothing into the output block either. -/
def out_B_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : ¬cond1 i)
    (x0 : Vec F S1024x512 .bf16) (x1 : Vec F S1024x512 .bf16) (x2 : Vec F S1024x1 .i32) (x3 : Vec F S1x1024 .i32) (xs : Vec F S8x128 .f32) : Vec F S1x8x128 .f32 :=
  VO4.read (Elt F) (VO4.writes (Elt F) VO4.junk (kernelRun_B c i arg2 harg2 arg3 harg3 arg4 harg4 arg5 harg5 arg6 harg6 arg7 harg7 hc0 hc1 x0 x1 x2 x3 xs).1)
theorem scover_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : ¬cond1 i)
    (x0 : Vec F S1024x512 .bf16) (x1 : Vec F S1024x512 .bf16) (x2 : Vec F S1024x1 .i32) (x3 : Vec F S1x1024 .i32) (xs : Vec F S8x128 .f32) (y : S8x128.Idx) :
    ∃ pc ∈ (kernelRun_B c i arg2 harg2 arg3 harg3 arg4 harg4 arg5 harg5 arg6 harg6 arg7 harg7 hc0 hc1 x0 x1 x2 x3 xs).2.1, y ∈ pc.1.set :=
  View.cover_of_tiledL (kernelRun_B c i arg2 harg2 arg3 harg3 arg4 harg4 arg5 harg5 arg6 harg6 arg7 harg7 hc0 hc1 x0 x1 x2 x3 xs).2.1 S8x128.size (by sl_kernel_rfl) y
def sout_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : ¬cond1 i)
    (x0 : Vec F S1024x512 .bf16) (x1 : Vec F S1024x512 .bf16) (x2 : Vec F S1024x1 .i32) (x3 : Vec F S1x1024 .i32) (xs : Vec F S8x128 .f32) : Vec F S8x128 .f32 :=
  VS.read (Elt F) (VS.writes (Elt F) VS.junk (kernelRun_B c i arg2 harg2 arg3 harg3 arg4 harg4 arg5 harg5 arg6 harg6 arg7 harg7 hc0 hc1 x0 x1 x2 x3 xs).2.1)

/-- The last-column case's pieces for the output block cover it, -/
theorem cover_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : cond1 i)
    (x0 : Vec F S1024x512 .bf16) (x1 : Vec F S1024x512 .bf16) (x2 : Vec F S1024x1 .i32) (x3 : Vec F S1x1024 .i32) (xs : Vec F S8x128 .f32) (y : S1x8x128.Idx) :
    ∃ pc ∈ (kernelRun_C c i arg2 harg2 arg3 harg3 arg4 harg4 arg5 harg5 arg6 harg6 arg7 harg7 hc0 hc1 x0 x1 x2 x3 xs).1, y ∈ pc.1.set :=
  View.cover_of_tiledL (kernelRun_C c i arg2 harg2 arg3 harg3 arg4 harg4 arg5 harg5 arg6 harg6 arg7 harg7 hc0 hc1 x0 x1 x2 x3 xs).1 S1x8x128.size (by sl_kernel_rfl) y
/-- and this is what it leaves there; -/
def out_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : cond1 i)
    (x0 : Vec F S1024x512 .bf16) (x1 : Vec F S1024x512 .bf16) (x2 : Vec F S1024x1 .i32) (x3 : Vec F S1x1024 .i32) (xs : Vec F S8x128 .f32) : Vec F S1x8x128 .f32 :=
  VO4.read (Elt F) (VO4.writes (Elt F) VO4.junk (kernelRun_C c i arg2 harg2 arg3 harg3 arg4 harg4 arg5 harg5 arg6 harg6 arg7 harg7 hc0 hc1 x0 x1 x2 x3 xs).1)
theorem scover_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : cond1 i)
    (x0 : Vec F S1024x512 .bf16) (x1 : Vec F S1024x512 .bf16) (x2 : Vec F S1024x1 .i32) (x3 : Vec F S1x1024 .i32) (xs : Vec F S8x128 .f32) (y : S8x128.Idx) :
    ∃ pc ∈ (kernelRun_C c i arg2 harg2 arg3 harg3 arg4 harg4 arg5 harg5 arg6 harg6 arg7 harg7 hc0 hc1 x0 x1 x2 x3 xs).2.1, y ∈ pc.1.set :=
  View.cover_of_tiledL (kernelRun_C c i arg2 harg2 arg3 harg3 arg4 harg4 arg5 harg5 arg6 harg6 arg7 harg7 hc0 hc1 x0 x1 x2 x3 xs).2.1 S8x128.size (by sl_kernel_rfl) y
/-- and in the scratch. -/
def sout_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : cond1 i)
    (x0 : Vec F S1024x512 .bf16) (x1 : Vec F S1024x512 .bf16) (x2 : Vec F S1024x1 .i32) (x3 : Vec F S1x1024 .i32) (xs : Vec F S8x128 .f32) : Vec F S8x128 .f32 :=
  VS.read (Elt F) (VS.writes (Elt F) VS.junk (kernelRun_C c i arg2 harg2 arg3 harg3 arg4 harg4 arg5 harg5 arg6 harg6 arg7 harg7 hc0 hc1 x0 x1 x2 x3 xs).2.1)

/-! ## Point by point -/

/-- What the output block's staging buffer and the scratch hold after the body at position `n`: the case the column of
    `n` selects, run at the point's memrefs and input blocks, over the scratch the point before left. -/
def outsAt (c : Dev nD) : (n : ℕ) → n < cfg0.N → Vec F S1x8x128 .f32 × Vec F S8x128 .f32
  | 0, hn => (out_A_4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩), sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out_A_4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩), sout_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out_C_4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2, sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
      else
        (out_B_4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2, sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

theorem outsAt_A (c : Dev nD) (t : Fin cfg0.N) (h0 : t.val % 8 = 0) (h1 : ¬t.val % 8 = 7) :
    outsAt m c t.val t.isLt = (out_A_4 c (grid0.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk m c 0 t) (iblk m c 1 t) (iblk m c 2 t) (iblk m c 3 t), sout_A c (grid0.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt_B (c : Dev nD) (t : Fin cfg0.N) (h0 : ¬t.val % 8 = 0) (h1 : ¬t.val % 8 = 7) :
    outsAt m c t.val t.isLt = (out_B_4 c (grid0.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2, sout_B c (grid0.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = (out_C_4 c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2, sout_C c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the plain one (the scratch at anything); afterwards
    the scratch at what the point before left in it. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body each input's buffer at its block and the output's at `outsAt`;
    the invariant `PhiS`; nothing owed; the shared array's two windows at the two half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the column says which case the point is in; the
    invariant hands the body the scratch at what the point before left (at anything at the very first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    ·
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [Dat.leavesExact_idle (dats m 0 c) 4 t (idleAt4_A t ((hcond0 t).mpr h0) (fun h => h1 ((hcond1 t).mp h))) (noFlush4_A t ((hcond0 t).mpr h0) (fun h => h1 ((hcond1 t).mp h)))]
      rw [outsAt_A m c t h0 h1]
      unfold sout_A; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun_A c (grid0.coords t) _ _ _ _ _ _ _ _ _ _ _ _ ((hcond0 t).mpr h0) (fun h => h1 ((hcond1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun_A c (grid0.coords t) _ _ _ _ _ _ _ _ _ _ _ _ ((hcond0 t).mpr h0) (fun h => h1 ((hcond1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    ·
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [show (dats m 0 c).leavesExact 4 t = owns (c : Thread nD τ) (ms4 t) fullShare ((dats m 0 c).after 4 t) from by
        unfold Dat.leavesExact; rw [liveAt4_C t (fun h => h0 ((hcond0 t).mp h)) ((hcond1 t).mpr h1)], after4]
      rw [outsAt_C m c t h0 h1]
      unfold out_C_4 sout_C; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun_C c (grid0.coords t) _ _ _ _ _ _ _ _ _ _ _ _ (fun h => h0 ((hcond0 t).mp h)) ((hcond1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover_C c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover_C_4 c _ _ _ _ _ _ _ _ _ _ _ _ _ _ _ _ _ _ _ _)
    ·
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [Dat.leavesExact_idle (dats m 0 c) 4 t (idleAt4_B t (fun h => h0 ((hcond0 t).mp h)) (fun h => h1 ((hcond1 t).mp h))) (noFlush4_B t (fun h => h0 ((hcond0 t).mp h)) (fun h => h1 ((hcond1 t).mp h)))]
      rw [outsAt_B m c t h0 h1]
      unfold sout_B; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun_B c (grid0.coords t) _ _ _ _ _ _ _ _ _ _ _ _ (fun h => h0 ((hcond0 t).mp h)) (fun h => h1 ((hcond1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover_B c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.Kernel.Launch.lean ====
import proofs.«166555_j42846593744919_1_alg».proof.Proof.Kernel.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents at the end of @main: the host lines after the region applied to the region's exit
    contents — the entry contents with the result array at what the write-backs of all points left. -/
abbrev Wfin (dats : (p : Fin 1) → (c : Dev nD) → Dat τ (Elt F) Unit ℕ (UR sig nD τ) ℕ (cfgs p) c) (c : Dev nD) : Valuation τ sig (Elt F) :=
  StableHlo.after hostOps1 (Function.update (V0 m c) (Proc.devRef .tc main_v8) ((dats 0 c).arrAt 4 cfg0.N))

/-! ## The arrays at the region's entry -/

/-- The distinct arrays behind the five windows: the shared input, the two other inputs, the result. -/
theorem arrImage0 : (Finset.univ : Finset (Fin 5)).image (Pipeline.arrRef spec0) = {main_v5, main_v6, main_v7, main_v8} := by decide

/-- Window `w`'s array, whole at share `q` at the entry contents, is the window's conjunct of the arrays at point 0. -/
theorem arr_conj0 (dats : (p : Fin 1) → (c : Dev nD) → Dat τ (Elt F) Unit ℕ (UR sig nD τ) ℕ (cfgs p) c)
    (hA : ∀ c w, (dats 0 c).A w = V m c (Pipeline.arrRef spec0 w)) (c : Dev nD) (w : Fin 5) (q : PosShare TreeShare) :
    (((c.tc : Thread nD τ).loc (Pipeline.arrRef spec0 w)) ↦{q} V m c (Pipeline.arrRef spec0 w) : sProp 𝕄)
      = ((cfg0.win w).arr.view.loc (c.tc : Thread nD τ) ↦[(cfg0.win w).arr.view.set]{q} (dats 0 c).arrAt w 0) := by
  rw [(arr_whole0 w).set_eq_univ, show (dats 0 c).arrAt w 0 = V m c (Pipeline.arrRef spec0 w) from hA c w]

/-- The buffers behind the windows' arrays, each whole at the entry contents, make the arrays as the proof data hold
    them at the first point: the shared input's buffer is split into the two halves of the full share, the left half for
    window 0 and the right half for window 1; every other buffer goes whole to its one window. -/
theorem hsplit0 (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  have hs0 : (dats 0 c).share 0 = fullShare.left := (if_neg (by decide)).trans (hq0 c)
  have hs1 : (dats 0 c).share 1 = fullShare.right := (if_neg (by decide)).trans (hq1 c)
  have hs2 : (dats 0 c).share 2 = fullShare := (if_neg (by decide)).trans (hq2 c)
  have hs3 : (dats 0 c).share 3 = fullShare := (if_neg (by decide)).trans (hq3 c)
  have hs4 : (dats 0 c).share 4 = fullShare := if_pos (by decide)
  unfold Pipeline.arrBufs Dat.arrays
  rw [arrImage0, bigSep_W0, bigSep_insert (by decide), bigSep_insert (by decide), bigSep_insert (by decide), bigSep_singleton,
    hs0, hs1, hs2, hs3, hs4]
  refine (show iprop((((c.tc : Thread nD τ).loc main_v5) ↦{fullShare} V m c main_v5) ∗ (((c.tc : Thread nD τ).loc main_v6) ↦{fullShare} V m c main_v6)
      ∗ (((c.tc : Thread nD τ).loc main_v7) ↦{fullShare} V m c main_v7) ∗ (((c.tc : Thread nD τ).loc main_v8) ↦{fullShare} V m c main_v8)) ⊢ _ from ?_)
  iintro ⟨H5, H6, H7, H8⟩
  ihave H5' := (pointsTo_share (PosShare.mem_left_op_right fullShare)).1 $$ H5
  icases H5' with ⟨H5l, H5r⟩
  isplitl [H5l]
  · iapply (Entails.of_eq (arr_conj0 m dats hA c 0 fullShare.left)); iexact H5l
  isplitl [H5r]
  · iapply (Entails.of_eq (arr_conj0 m dats hA c 1 fullShare.right)); iexact H5r
  isplitl [H6]
  · iapply (Entails.of_eq (arr_conj0 m dats hA c 2 fullShare)); iexact H6
  isplitl [H7]
  · iapply (Entails.of_eq (arr_conj0 m dats hA c 3 fullShare)); iexact H7
  iapply (Entails.of_eq (arr_conj0 m dats hA c 4 fullShare)); iexact H8

/-! ## The lines after the region -/

/-- The result array is no bypassing buffer. -/
theorem main_v8_not_rest : main_v8 ∉ Pipeline.restRefs sig spec0 := fun h =>
  (Finset.mem_sdiff.mp h).2 (Finset.mem_image.mpr ⟨4, Finset.mem_univ _, rfl⟩)

/-- The device buffers the lines after the region run within: the result array and the bypassing buffers. -/
abbrev S0 : Finset (DevRef τ sig) :=
  (insert main_v8 (Pipeline.restRefs sig spec0)).map ⟨Proc.devRef (sig := sig) (.tc : Proc τ), Proc.devRef_injective _⟩

/-- Those buffers held at a valuation: the result array's buffer and the bypassing buffers, each at its contents there. -/
theorem held_S0 (c : Dev nD) (W : Valuation τ sig (Elt F)) :
    (StableHlo.held (c.tc : Thread nD τ) S0 W : sProp 𝕄)
      = iprop((((c.tc : Thread nD τ).loc main_v8) ↦{fullShare} W (Proc.devRef .tc main_v8))
          ∗ bigSep (Pipeline.restRefs sig spec0) fun b => ((c.tc : Thread nD τ).loc b) ↦{fullShare} W (Proc.devRef .tc b)) := by
  unfold StableHlo.held S0
  rw [bigSep_map, bigSep_insert main_v8_not_rest]
  rfl

/-- An unscoped reference that is no window's array is one of those buffers. -/
theorem mem_S0 (b : Ref sig .tc) (hs : b.isScoped = false) (ha : ∀ w, (spec0 w).arr.view.ref ≠ b) :
    Proc.devRef (τ := τ) .tc b ∈ S0 :=
  Finset.mem_map_of_mem _ (Finset.mem_insert_of_mem (Pipeline.mem_restRefs_of b hs ha))

/-- So is the result array. -/
theorem main_v8_mem_S0 : Proc.devRef (τ := τ) .tc main_v8 ∈ S0 :=
  Finset.mem_map_of_mem _ (Finset.mem_insert_self _ _)

/-- Every line after the region touches only the result array and bypassing buffers. -/
theorem hostOps1_S0 : ∀ op ∈ (hostOps1 : List (HloOp τ sig (Elt F))), op.bufs ⊆ S0 := by
  refine List.forall_iff_forall_mem.mp (?_ : (hostOps1 : List (HloOp τ sig (Elt F))).Forall fun op => op.bufs ⊆ S0)
  refine ⟨?_, ?_, ?_, ?_, ?_, ?_⟩
  · exact Finset.insert_subset_iff.mpr ⟨main_v8_mem_S0, Finset.singleton_subset_iff.mpr (mem_S0 main_v9 rfl (by decide))⟩
  · exact Finset.insert_subset_iff.mpr ⟨mem_S0 main_v9 rfl (by decide), Finset.singleton_subset_iff.mpr (mem_S0 main_v10 rfl (by decide))⟩
  · exact Finset.singleton_subset_iff.mpr (mem_S0 main_cst_0 rfl (by decide))
  · exact Finset.insert_subset_iff.mpr ⟨mem_S0 main_v10 rfl (by decide),
      Finset.insert_subset_iff.mpr ⟨mem_S0 main_cst_0 rfl (by decide), Finset.singleton_subset_iff.mpr (mem_S0 main_v11 rfl (by decide))⟩⟩
  · exact Finset.singleton_subset_iff.mpr (mem_S0 main_cst_1 rfl (by decide))
  · exact Finset.insert_subset_iff.mpr ⟨mem_S0 main_v11 rfl (by decide),
      Finset.insert_subset_iff.mpr ⟨mem_S0 main_cst_1 rfl (by decide), Finset.singleton_subset_iff.mpr (mem_S0 main_v12 rfl (by decide))⟩⟩

/-- No line after the region writes the result array. -/
theorem after_hostOps1_main_v8 (W : Valuation τ sig (Elt F)) :
    StableHlo.after hostOps1 W (Proc.devRef .tc main_v8) = W (Proc.devRef .tc main_v8) :=
  StableHlo.after_of_forall_not_mem (b := Proc.devRef .tc main_v8) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- At the region's exit contents, those buffers held are the result array at what the write-backs left and the
    bypassing buffers at their entry contents. -/
theorem held_S0_exit (dats : (p : Fin 1) → (c : Dev nD) → Dat τ (Elt F) Unit ℕ (UR sig nD τ) ℕ (cfgs p) c) (c : Dev nD) :
    (StableHlo.held (c.tc : Thread nD τ) S0 (Function.update (V0 m c) (Proc.devRef .tc main_v8) ((dats 0 c).arrAt 4 cfg0.N)) : sProp 𝕄)
      = iprop((((c.tc : Thread nD τ).loc main_v8) ↦{fullShare} (dats 0 c).arrAt 4 cfg0.N) ∗ Pipeline.unscopedRest spec0 c (V m c)) := by
  rw [held_S0]; unfold Pipeline.unscopedRest
  refine congrArg₂ _ ?_ (bigSep_congr fun b hb => ?_)
  · rw [Function.update_self]
  · rw [Function.update_of_ne (StableHlo.devRef_ne_of_ne fun e : b = main_v8 => main_v8_not_rest (e ▸ hb))]

/-- After the lines, they are the result array unchanged and the bypassing buffers at `Wfin`. -/
theorem held_S0_fin (dats : (p : Fin 1) → (c : Dev nD) → Dat τ (Elt F) Unit ℕ (UR sig nD τ) ℕ (cfgs p) c) (c : Dev nD) :
    (StableHlo.held (c.tc : Thread nD τ) S0 (Wfin m dats c) : sProp 𝕄)
      = iprop((((c.tc : Thread nD τ).loc main_v8) ↦{fullShare} (dats 0 c).arrAt 4 cfg0.N)
          ∗ Pipeline.unscopedRest spec0 c (fun b => Wfin m dats c (Proc.devRef .tc b))) := by
  rw [held_S0]; unfold Pipeline.unscopedRest
  refine congrArg₂ _ ?_ rfl
  unfold Wfin
  rw [after_hostOps1_main_v8, Function.update_self]

set_option backward.isDefEq.respectTransparency.types false in
/-- The lines after the region, run from the region's exit: they read the result array (held whole) and bypassing
    buffers, write bypassing buffers only, and hand the arrays back as they were and the bypassing buffers at `Wfin`. -/
theorem tail0 (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N)
              ∗ Pipeline.unscopedRestP Pipeline.Prefetch.none spec0 c (fun b => Wfin m dats c (Proc.devRef .tc b))) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hs4 : (dats 0 c).share 4 = fullShare := if_pos (by decide)
  have h4 : ∀ X, ((cfg0.win 4).arr.view.loc (c.tc : Thread nD τ) ↦[(cfg0.win 4).arr.view.set]{(dats 0 c).share 4} X : sProp 𝕄)
      = (((c.tc : Thread nD τ).loc main_v8) ↦{fullShare} X) := fun X => by rw [(arr_whole0 4).set_eq_univ, hs4]
  rw [Pipeline.unscopedRestP_none, Pipeline.unscopedRestP_none,
    show [StableHlo.seq (hostOps1 : List (HloOp τ sig (Elt F)))] = List.map StableHlo.seq [hostOps1] ++ [] from rfl]
  unfold Dat.arrays
  rw [bigSep_W0, h4]
  iintro ⟨Hk, Hb, ⟨H0, H1, H2, H3, H4⟩, HZ⟩
  iapply (Pipeline.wp_seqs_then (fun q => (cfgs q).toPCfg (Val := Elt F)) defs₀ Variants.none c S0 [] [hostOps1]
      (fun ops ho op h => by obtain rfl := List.mem_singleton.mp ho; exact hostOps1_S0 op h)
      (fun ops ho op h => by obtain rfl := List.mem_singleton.mp ho; exact (List.forall_iff_forall_mem.mp hostOps1_fresh) op h)
      (Function.update (V0 m c) (Proc.devRef .tc main_v8) ((dats 0 c).arrAt 4 cfg0.N))) $$ [Hb H4 HZ]
  · rw [held_S0_exit]
    isplitl [Hb]; · iexact Hb
    isplitl [H4] <;> iassumption
  iintro Hb
  rw [Pipeline.chain_nil, wp_pure, show List.flatten [(hostOps1 : List (HloOp τ sig (Elt F)))] = hostOps1 from rfl]
  imodintro
  iapply Hk
  icases Hb with ⟨-, Hh⟩
  ihave Hh' := (Entails.of_eq (held_S0_fin m dats c)) $$ Hh
  icases Hh' with ⟨H4, HZ⟩
  isplitr [HZ]
  · isplitl [H0]; · iexact H0
    isplitl [H1]; · iexact H1
    isplitl [H2]; · iexact H2
    isplitl [H3]; · iexact H3
    iexact H4
  · iexact HZ

/-! ## The run -/

/-- THE RUN, for any proof data of the region that hold the shared array at the two half shares (window 0 the left
    half, window 1 the right half) and the other input arrays whole: every weakly fair execution of @main terminates
    and every buffer that bypasses the region ends at `Wfin`. -/
theorem run_around (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (fun r => ∀ c : Dev nD,
      ∀ b ∈ Pipeline.restRefs sig spec0, r.2.mem ((c.tc : Thread nD τ).loc b) = Wfin m dats c (Proc.devRef .tc b)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit0 m dats hq0 hq1 hq2 hq3 hA)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => Wfin m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := tail0 m dats)
    (QY := fun c s => ∀ b ∈ Pipeline.restRefs sig spec0, s.mem ((c.tc : Thread nD τ).loc b) = Wfin m dats c (Proc.devRef .tc b))
    (hY := fun c s' => by
      rw [Pipeline.unscopedRestP_none]; unfold Pipeline.unscopedRest
      iintro ⟨-, HU, HSI⟩
      imodintro
      iapply (pointsTo_read_all (Pipeline.restRefs sig spec0) (fun b => (c.tc : Thread nD τ).loc b) (fun b => Wfin m dats c (Proc.devRef .tc b)) s')
      isplitl [HU] <;> iassumption)
    (hQ := fun s h c => (h c).2.2)

end Cert.Kernel.Hand

end
-- ==== Proof.Kernel.FrameEnd.lean ====
import proofs.«166555_j42846593744919_1_alg».proof.Proof.Kernel.Body
import proofs.«166555_j42846593744919_1_alg».proof.Proof.Kernel.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region write neither argument. -/
theorem tail_arg0 (W : Valuation τ sig (Elt F)) :
    StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem tail_arg1 (W : Valuation τ sig (Elt F)) :
    StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- So at the end of @main each argument's buffer holds its launch contents. -/
theorem Wfin_arg0 (dats : (p : Fin 1) → (c : Dev nD) → Dat τ (Elt F) Unit ℕ (UR sig nD τ) ℕ (cfgs p) c) (c : Dev nD) :
    Wfin m dats c (Proc.devRef .tc main_arg0) = m ((c : Thread nD τ).loc main_arg0) :=
  (tail_arg0 _).trans ((Function.update_of_ne (StableHlo.devRef_ne_of_ne (by decide)) _ _).trans (V_main_arg0 m c))
theorem Wfin_arg1 (dats : (p : Fin 1) → (c : Dev nD) → Dat τ (Elt F) Unit ℕ (UR sig nD τ) ℕ (cfgs p) c) (c : Dev nD) :
    Wfin m dats c (Proc.devRef .tc main_arg1) = m ((c : Thread nD τ).loc main_arg1) :=
  (tail_arg1 _).trans ((Function.update_of_ne (StableHlo.devRef_ne_of_ne (by decide)) _ _).trans (V_main_arg1 m c))

/-- THE RUN with the body's proof data: every weakly fair execution of @main terminates and every buffer that bypasses
    the region ends at `Wfin`. -/
theorem run_main : θ_run defs (onTc (τ := τ) (main (F := F))) (s₀ m ρ) (fun r => ∀ c : Dev nD,
    ∀ b ∈ Pipeline.restRefs sig spec0, r.2.mem ((c.tc : Thread nD τ).loc b) = Wfin m (dats m) c (Proc.devRef .tc b)) :=
  run_around m ρ (dats m) (fun c => (body_obligation m c).loose) (fun _ => rfl) (fun _ => rfl) (fun _ => rfl) (fun _ => rfl)
    (fun _ _ => rfl) (A_eq m) (hin m) (hout m)

theorem arg0_rest : main_arg0 ∈ Pipeline.restRefs sig spec0 := Pipeline.mem_restRefs_of main_arg0 rfl (by decide)
theorem arg1_rest : main_arg1 ∈ Pipeline.restRefs sig spec0 := Pipeline.mem_restRefs_of main_arg1 rfl (by decide)
theorem v12_rest : main_v12 ∈ Pipeline.restRefs sig spec0 := Pipeline.mem_restRefs_of main_v12 rfl (by decide)

/-- THE FRAME: the program runs to the end and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 arg0_rest).trans (Wfin_arg0 m (dats m) c),
    (h c main_arg1 arg1_rest).trans (Wfin_arg1 m (dats m) c)⟩) (run_main m ρ)

end Cert.Kernel.Hand

end
-- ==== Proof.KernelIdeal.Entry.lean ====
/-
  The idealized kernel program around its one kernel region: the contents of the TensorCore's buffers when the region is
  entered (the thirteen host operations before it applied to the launch memory), @main reduced to the region followed
  by the six host operations after it, and each input window's block at a grid point read off the array the region
  finds. Two input windows (the row tile and the column tile of the normalized matrix) read ONE array; nothing here
  depends on the arrays being distinct.
-/
import proofs.«166555_j42846593744919_1_alg».proof.Proof.Gen.KernelIdeal.Launch
import proofs.«166555_j42846593744919_1_alg».proof.Proof.Gen.KernelIdeal.Skeleton
import proofs.«166555_j42846593744919_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the host operations before it applied to the launch memory. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- No host operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched its block index has not moved), for any proof data whose array is the entry contents and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KernelIdeal.Cases.lean ====
/-
  The kernel body's three control cases over the 8 x 8 grid, and what they are stated over.

  The grid point `t` has column coordinate `t mod 8`. The body resets the running total (the scratch) when the column is
  0, adds the tile's total to it at every point, and copies it to the output block when the column is 7. So a point is
  in one of three cases: first column (reset, add), middle columns (add), last column (add, copy out). The output
  window is idle — the body stores nothing into it and the pipeline does not write it back — except in the last column.
-/
import proofs.«166555_j42846593744919_1_alg».proof.Proof.KernelIdeal.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The first conditional's condition (column coordinate = 0), from the grid coordinates. -/
abbrev cond0 (i : grid0.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-- The second conditional's condition (column coordinate = 7). -/
abbrev cond1 (i : grid0.Coords) : Prop := k0_cond2 i = 1#1
/-- It holds at the points ≡ 7 (mod 8). -/
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- In the first and the middle columns the output window is idle and is not written back. -/
theorem idleAt4_A : ∀ t : Fin cfg0.N, cond0 (grid0.coords t) → ¬cond1 (grid0.coords t) → cfg0.idle 4 (grid0.coords t) = true := by decide +kernel
theorem noFlush4_A : ∀ t : Fin cfg0.N, cond0 (grid0.coords t) → ¬cond1 (grid0.coords t) → (cfg0.win 4).flush t = false := by decide +kernel
theorem idleAt4_B : ∀ t : Fin cfg0.N, ¬cond0 (grid0.coords t) → ¬cond1 (grid0.coords t) → cfg0.idle 4 (grid0.coords t) = true := by decide +kernel
theorem noFlush4_B : ∀ t : Fin cfg0.N, ¬cond0 (grid0.coords t) → ¬cond1 (grid0.coords t) → (cfg0.win 4).flush t = false := by decide +kernel
/-- In the last column the body stores into it. -/
theorem liveAt4_C : ∀ t : Fin cfg0.N, ¬cond0 (grid0.coords t) → cond1 (grid0.coords t) → cfg0.idle 4 (grid0.coords t) = false := by decide +kernel

/-! ## The memrefs the body is called with -/

/-- One staging buffer of the output window, through which its contents are stated. -/
abbrev VO4 : View sig .tc .vmem S1x8x128 .f32 := (Memref.whole cc0_stg4_0 : Memref sig .tc .vmem S1x8x128 .f32).view
/-- Each window's current staging memref at point `t`, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8x128 .f32 := win0_4.stage (cfg0.slots t 4)
abbrev hs4 (t : Fin cfg0.N) : (ms4 t).IsWhole := hstage0_4 ((cfg0.slots t 4).cast nbuf0_4)
/-- The scratch: the running total, a whole scoped buffer of the kernel's own. -/
abbrev scM : Memref sig .tc .vmem S8x128 .f32 := Memref.whole cc0_scratch0
abbrev VS : View sig .tc .vmem S8x128 .f32 := scM.view

/-- The region's plain invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KernelIdeal.RunA.lean ====
/-
  The body run whole in the FIRST-COLUMN case: the running total is reset to zero, the tile's total is added, nothing
  is stored into the output block. What the run leaves in the scratch is found as a list of stored pieces.
-/
import proofs.«166555_j42846593744919_1_alg».proof.Proof.KernelIdeal.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First-column case (first conditional taken, second not): on whole staging memrefs — the four inputs at their
    contents, the idle output at contents handed back untouched, the scratch at anything — the body runs to the
    continuation holding the inputs and the output as they were and the scratch with its pieces written. -/
noncomputable def kernelRun_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : cond0 i) (hc1 : ¬cond1 i)
    (x0 : Vec F S1024x512 .bf16) (x1 : Vec F S1024x512 .bf16) (x2 : Vec F S1024x1 .i32) (x3 : Vec F S1x1024 .i32) :
    Σ' (L4 : List (View.Piece (Elt F) S1x8x128 .f32)), { LS : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨[], ?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KernelIdeal.RunB.lean ====
/-
  The body run whole in the MIDDLE-COLUMN case: the tile's total is added to the running total the point before left;
  nothing is stored into the output block.
-/
import proofs.«166555_j42846593744919_1_alg».proof.Proof.KernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle-column case (neither conditional taken): the inputs at their contents, the idle output handed back untouched,
    the scratch at the contents `xs` the point before left; the body leaves the scratch with its pieces written. -/
noncomputable def kernelRun_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : ¬cond1 i)
    (x0 : Vec F S1024x512 .bf16) (x1 : Vec F S1024x512 .bf16) (x2 : Vec F S1024x1 .i32) (x3 : Vec F S1x1024 .i32) (xs : Vec F S8x128 .f32) :
    Σ' (L4 : List (View.Piece (Elt F) S1x8x128 .f32)), { LS : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨[], ?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KernelIdeal.RunC.lean ====
/-
  The body run whole in the LAST-COLUMN case: the tile's total is added to the running total the point before left,
  and the new total is copied into the output block.
-/
import proofs.«166555_j42846593744919_1_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last-column case (second conditional taken): the inputs at their contents, the output block at anything, the
    scratch at the contents `xs` the point before left; the body leaves the scratch and the output block each with its
    pieces written. -/
noncomputable def kernelRun_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : cond1 i)
    (x0 : Vec F S1024x512 .bf16) (x1 : Vec F S1024x512 .bf16) (x2 : Vec F S1024x1 .i32) (x3 : Vec F S1x1024 .i32) (xs : Vec F S8x128 .f32) :
    Σ' (L4 : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KernelIdeal.Body.lean ====
/-
  What the kernel leaves after each grid point, the region's proof data, and the body's obligation at every point.

  After point `t` the scratch holds the running total of the tile totals of the current row of tiles up to column
  `t mod 8` (reset at column 0), and in the last column the output block holds a copy of it. The two windows that read
  the normalized matrix hold its one array at the two halves of the full share.
-/
import proofs.«166555_j42846593744919_1_alg».proof.Proof.KernelIdeal.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first-column case stores nothing into the output block: a placeholder nothing consults. -/
def out_A_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : cond0 i) (hc1 : ¬cond1 i)
    (x0 : Vec F S1024x512 .bf16) (x1 : Vec F S1024x512 .bf16) (x2 : Vec F S1024x1 .i32) (x3 : Vec F S1x1024 .i32) : Vec F S1x8x128 .f32 :=
  VO4.read (Elt F) (VO4.writes (Elt F) VO4.junk (kernelRun_A c i arg2 harg2 arg3 harg3 arg4 harg4 arg5 harg5 arg6 harg6 arg7 harg7 hc0 hc1 x0 x1 x2 x3).1)
/-- Its pieces for the scratch cover it. -/
theorem scover_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : cond0 i) (hc1 : ¬cond1 i)
    (x0 : Vec F S1024x512 .bf16) (x1 : Vec F S1024x512 .bf16) (x2 : Vec F S1024x1 .i32) (x3 : Vec F S1x1024 .i32) (y : S8x128.Idx) :
    ∃ pc ∈ (kernelRun_A c i arg2 harg2 arg3 harg3 arg4 harg4 arg5 harg5 arg6 harg6 arg7 harg7 hc0 hc1 x0 x1 x2 x3).2.1, y ∈ pc.1.set :=
  View.cover_of_tiledL (kernelRun_A c i arg2 harg2 arg3 harg3 arg4 harg4 arg5 harg5 arg6 harg6 arg7 harg7 hc0 hc1 x0 x1 x2 x3).2.1 S8x128.size (by sl_kernel_rfl) y
/-- What it leaves in the scratch. -/
def sout_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : cond0 i) (hc1 : ¬cond1 i)
    (x0 : Vec F S1024x512 .bf16) (x1 : Vec F S1024x512 .bf16) (x2 : Vec F S1024x1 .i32) (x3 : Vec F S1x1024 .i32) : Vec F S8x128 .f32 :=
  VS.read (Elt F) (VS.writes (Elt F) VS.junk (kernelRun_A c i arg2 harg2 arg3 harg3 arg4 harg4 arg5 harg5 arg6 harg6 arg7 harg7 hc0 hc1 x0 x1 x2 x3).2.1)

/-- The middle-column case stores nothing into the output block either. -/
def out_B_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : ¬cond1 i)
    (x0 : Vec F S1024x512 .bf16) (x1 : Vec F S1024x512 .bf16) (x2 : Vec F S1024x1 .i32) (x3 : Vec F S1x1024 .i32) (xs : Vec F S8x128 .f32) : Vec F S1x8x128 .f32 :=
  VO4.read (Elt F) (VO4.writes (Elt F) VO4.junk (kernelRun_B c i arg2 harg2 arg3 harg3 arg4 harg4 arg5 harg5 arg6 harg6 arg7 harg7 hc0 hc1 x0 x1 x2 x3 xs).1)
theorem scover_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : ¬cond1 i)
    (x0 : Vec F S1024x512 .bf16) (x1 : Vec F S1024x512 .bf16) (x2 : Vec F S1024x1 .i32) (x3 : Vec F S1x1024 .i32) (xs : Vec F S8x128 .f32) (y : S8x128.Idx) :
    ∃ pc ∈ (kernelRun_B c i arg2 harg2 arg3 harg3 arg4 harg4 arg5 harg5 arg6 harg6 arg7 harg7 hc0 hc1 x0 x1 x2 x3 xs).2.1, y ∈ pc.1.set :=
  View.cover_of_tiledL (kernelRun_B c i arg2 harg2 arg3 harg3 arg4 harg4 arg5 harg5 arg6 harg6 arg7 harg7 hc0 hc1 x0 x1 x2 x3 xs).2.1 S8x128.size (by sl_kernel_rfl) y
def sout_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : ¬cond1 i)
    (x0 : Vec F S1024x512 .bf16) (x1 : Vec F S1024x512 .bf16) (x2 : Vec F S1024x1 .i32) (x3 : Vec F S1x1024 .i32) (xs : Vec F S8x128 .f32) : Vec F S8x128 .f32 :=
  VS.read (Elt F) (VS.writes (Elt F) VS.junk (kernelRun_B c i arg2 harg2 arg3 harg3 arg4 harg4 arg5 harg5 arg6 harg6 arg7 harg7 hc0 hc1 x0 x1 x2 x3 xs).2.1)

/-- The last-column case's pieces for the output block cover it, -/
theorem cover_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : cond1 i)
    (x0 : Vec F S1024x512 .bf16) (x1 : Vec F S1024x512 .bf16) (x2 : Vec F S1024x1 .i32) (x3 : Vec F S1x1024 .i32) (xs : Vec F S8x128 .f32) (y : S1x8x128.Idx) :
    ∃ pc ∈ (kernelRun_C c i arg2 harg2 arg3 harg3 arg4 harg4 arg5 harg5 arg6 harg6 arg7 harg7 hc0 hc1 x0 x1 x2 x3 xs).1, y ∈ pc.1.set :=
  View.cover_of_tiledL (kernelRun_C c i arg2 harg2 arg3 harg3 arg4 harg4 arg5 harg5 arg6 harg6 arg7 harg7 hc0 hc1 x0 x1 x2 x3 xs).1 S1x8x128.size (by sl_kernel_rfl) y
/-- and this is what it leaves there; -/
def out_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : cond1 i)
    (x0 : Vec F S1024x512 .bf16) (x1 : Vec F S1024x512 .bf16) (x2 : Vec F S1024x1 .i32) (x3 : Vec F S1x1024 .i32) (xs : Vec F S8x128 .f32) : Vec F S1x8x128 .f32 :=
  VO4.read (Elt F) (VO4.writes (Elt F) VO4.junk (kernelRun_C c i arg2 harg2 arg3 harg3 arg4 harg4 arg5 harg5 arg6 harg6 arg7 harg7 hc0 hc1 x0 x1 x2 x3 xs).1)
theorem scover_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : cond1 i)
    (x0 : Vec F S1024x512 .bf16) (x1 : Vec F S1024x512 .bf16) (x2 : Vec F S1024x1 .i32) (x3 : Vec F S1x1024 .i32) (xs : Vec F S8x128 .f32) (y : S8x128.Idx) :
    ∃ pc ∈ (kernelRun_C c i arg2 harg2 arg3 harg3 arg4 harg4 arg5 harg5 arg6 harg6 arg7 harg7 hc0 hc1 x0 x1 x2 x3 xs).2.1, y ∈ pc.1.set :=
  View.cover_of_tiledL (kernelRun_C c i arg2 harg2 arg3 harg3 arg4 harg4 arg5 harg5 arg6 harg6 arg7 harg7 hc0 hc1 x0 x1 x2 x3 xs).2.1 S8x128.size (by sl_kernel_rfl) y
/-- and in the scratch. -/
def sout_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : cond1 i)
    (x0 : Vec F S1024x512 .bf16) (x1 : Vec F S1024x512 .bf16) (x2 : Vec F S1024x1 .i32) (x3 : Vec F S1x1024 .i32) (xs : Vec F S8x128 .f32) : Vec F S8x128 .f32 :=
  VS.read (Elt F) (VS.writes (Elt F) VS.junk (kernelRun_C c i arg2 harg2 arg3 harg3 arg4 harg4 arg5 harg5 arg6 harg6 arg7 harg7 hc0 hc1 x0 x1 x2 x3 xs).2.1)

/-! ## Point by point -/

/-- What the output block's staging buffer and the scratch hold after the body at position `n`: the case the column of
    `n` selects, run at the point's memrefs and input blocks, over the scratch the point before left. -/
def outsAt (c : Dev nD) : (n : ℕ) → n < cfg0.N → Vec F S1x8x128 .f32 × Vec F S8x128 .f32
  | 0, hn => (out_A_4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩), sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (out_A_4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩), sout_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out_C_4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2, sout_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
      else
        (out_B_4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2, sout_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

theorem outsAt_A (c : Dev nD) (t : Fin cfg0.N) (h0 : t.val % 8 = 0) (h1 : ¬t.val % 8 = 7) :
    outsAt m c t.val t.isLt = (out_A_4 c (grid0.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk m c 0 t) (iblk m c 1 t) (iblk m c 2 t) (iblk m c 3 t), sout_A c (grid0.coords t) (ms0 t) (hs0 t) (ms1 t) (hs1 t) (ms2 t) (hs2 t) (ms3 t) (hs3 t) (ms4 t) (hs4 t) scM (Memref.isWhole_whole _) ((hcond0 t).mpr h0) (fun h => h1 ((hcond1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt_B (c : Dev nD) (t : Fin cfg0.N) (h0 : ¬t.val % 8 = 0) (h1 : ¬t.val % 8 = 7) :
    outsAt m c t.val t.isLt = (out_B_4 c (grid0.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2, sout_B c (grid0.coords t) (ms0 t) (hs0 t) (ms1 t) (hs1 t) (ms2 t) (hs2 t) (ms3 t) (hs3 t) (ms4 t) (hs4 t) scM (Memref.isWhole_whole _) (fun h => h0 ((hcond0 t).mp h)) (fun h => h1 ((hcond1 t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = (out_C_4 c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2, sout_C c (grid0.coords t) (ms0 t) (hs0 t) (ms1 t) (hs1 t) (ms2 t) (hs2 t) (ms3 t) (hs3 t) (ms4 t) (hs4 t) scM (Memref.isWhole_whole _) (fun h => h0 ((hcond0 t).mp h)) ((hcond1 t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the plain one (the scratch at anything); afterwards
    the scratch at what the point before left in it. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body each input's buffer at its block and the output's at `outsAt`;
    the invariant `PhiS`; nothing owed; the shared array's two windows at the two half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the column says which case the point is in; the
    invariant hands the body the scratch at what the point before left (at anything at the very first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    ·
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [Dat.leavesExact_idle (dats m 0 c) 4 t (idleAt4_A t ((hcond0 t).mpr h0) (fun h => h1 ((hcond1 t).mp h))) (noFlush4_A t ((hcond0 t).mpr h0) (fun h => h1 ((hcond1 t).mp h)))]
      rw [outsAt_A m c t h0 h1]
      unfold sout_A; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun_A c (grid0.coords t) _ _ _ _ _ _ _ _ _ _ _ _ ((hcond0 t).mpr h0) (fun h => h1 ((hcond1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun_A c (grid0.coords t) _ _ _ _ _ _ _ _ _ _ _ _ ((hcond0 t).mpr h0) (fun h => h1 ((hcond1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    ·
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [show (dats m 0 c).leavesExact 4 t = owns (c : Thread nD τ) (ms4 t) fullShare ((dats m 0 c).after 4 t) from by
        unfold Dat.leavesExact; rw [liveAt4_C t (fun h => h0 ((hcond0 t).mp h)) ((hcond1 t).mpr h1)], after4]
      rw [outsAt_C m c t h0 h1]
      unfold out_C_4 sout_C; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun_C c (grid0.coords t) _ _ _ _ _ _ _ _ _ _ _ _ (fun h => h0 ((hcond0 t).mp h)) ((hcond1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover_C c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover_C_4 c _ _ _ _ _ _ _ _ _ _ _ _ _ _ _ _ _ _ _ _)
    ·
      rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [Dat.leavesExact_idle (dats m 0 c) 4 t (idleAt4_B t (fun h => h0 ((hcond0 t).mp h)) (fun h => h1 ((hcond1 t).mp h))) (noFlush4_B t (fun h => h0 ((hcond0 t).mp h)) (fun h => h1 ((hcond1 t).mp h)))]
      rw [outsAt_B m c t h0 h1]
      unfold sout_B; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun_B c (grid0.coords t) _ _ _ _ _ _ _ _ _ _ _ _ (fun h => h0 ((hcond0 t).mp h)) (fun h => h1 ((hcond1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover_B c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KernelIdeal.Launch.lean ====
/-
  The launch of the idealized kernel program: its one kernel region entered after the host lines before it and
  followed by the host lines after it, for a kernel two of whose input windows read ONE array (the normalized matrix,
  once by row tile and once by column tile). That array's buffer is held by the two windows at the two halves of the
  full share; every other array is held whole. The run's post names what every buffer that bypasses the region holds
  at the end: the host lines after the region applied to the region's exit contents, where the result array holds
  what the write-backs left.
-/
import proofs.«166555_j42846593744919_1_alg».proof.Proof.KernelIdeal.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents at the end of @main: the host lines after the region applied to the region's exit
    contents — the entry contents with the result array at what the write-backs of all points left. -/
abbrev Wfin (dats : (p : Fin 1) → (c : Dev nD) → Dat τ (Elt F) Unit ℕ (UR sig nD τ) ℕ (cfgs p) c) (c : Dev nD) : Valuation τ sig (Elt F) :=
  StableHlo.after hostOps1 (Function.update (V0 m c) (Proc.devRef .tc main_v8) ((dats 0 c).arrAt 4 cfg0.N))

/-! ## The arrays at the region's entry -/

/-- The distinct arrays behind the five windows: the shared input, the two other inputs, the result. -/
theorem arrImage0 : (Finset.univ : Finset (Fin 5)).image (Pipeline.arrRef spec0) = {main_v5, main_v6, main_v7, main_v8} := by decide

/-- Window `w`'s array, whole at share `q` at the entry contents, is the window's conjunct of the arrays at point 0. -/
theorem arr_conj0 (dats : (p : Fin 1) → (c : Dev nD) → Dat τ (Elt F) Unit ℕ (UR sig nD τ) ℕ (cfgs p) c)
    (hA : ∀ c w, (dats 0 c).A w = V m c (Pipeline.arrRef spec0 w)) (c : Dev nD) (w : Fin 5) (q : PosShare TreeShare) :
    (((c.tc : Thread nD τ).loc (Pipeline.arrRef spec0 w)) ↦{q} V m c (Pipeline.arrRef spec0 w) : sProp 𝕄)
      = ((cfg0.win w).arr.view.loc (c.tc : Thread nD τ) ↦[(cfg0.win w).arr.view.set]{q} (dats 0 c).arrAt w 0) := by
  rw [(arr_whole0 w).set_eq_univ, show (dats 0 c).arrAt w 0 = V m c (Pipeline.arrRef spec0 w) from hA c w]

/-- The buffers behind the windows' arrays, each whole at the entry contents, make the arrays as the proof data hold
    them at the first point: the shared input's buffer is split into the two halves of the full share, the left half for
    window 0 and the right half for window 1; every other buffer goes whole to its one window. -/
theorem hsplit0 (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  have hs0 : (dats 0 c).share 0 = fullShare.left := (if_neg (by decide)).trans (hq0 c)
  have hs1 : (dats 0 c).share 1 = fullShare.right := (if_neg (by decide)).trans (hq1 c)
  have hs2 : (dats 0 c).share 2 = fullShare := (if_neg (by decide)).trans (hq2 c)
  have hs3 : (dats 0 c).share 3 = fullShare := (if_neg (by decide)).trans (hq3 c)
  have hs4 : (dats 0 c).share 4 = fullShare := if_pos (by decide)
  unfold Pipeline.arrBufs Dat.arrays
  rw [arrImage0, bigSep_W0, bigSep_insert (by decide), bigSep_insert (by decide), bigSep_insert (by decide), bigSep_singleton,
    hs0, hs1, hs2, hs3, hs4]
  refine (show iprop((((c.tc : Thread nD τ).loc main_v5) ↦{fullShare} V m c main_v5) ∗ (((c.tc : Thread nD τ).loc main_v6) ↦{fullShare} V m c main_v6)
      ∗ (((c.tc : Thread nD τ).loc main_v7) ↦{fullShare} V m c main_v7) ∗ (((c.tc : Thread nD τ).loc main_v8) ↦{fullShare} V m c main_v8)) ⊢ _ from ?_)
  iintro ⟨H5, H6, H7, H8⟩
  ihave H5' := (pointsTo_share (PosShare.mem_left_op_right fullShare)).1 $$ H5
  icases H5' with ⟨H5l, H5r⟩
  isplitl [H5l]
  · iapply (Entails.of_eq (arr_conj0 m dats hA c 0 fullShare.left)); iexact H5l
  isplitl [H5r]
  · iapply (Entails.of_eq (arr_conj0 m dats hA c 1 fullShare.right)); iexact H5r
  isplitl [H6]
  · iapply (Entails.of_eq (arr_conj0 m dats hA c 2 fullShare)); iexact H6
  isplitl [H7]
  · iapply (Entails.of_eq (arr_conj0 m dats hA c 3 fullShare)); iexact H7
  iapply (Entails.of_eq (arr_conj0 m dats hA c 4 fullShare)); iexact H8

/-! ## The lines after the region -/

/-- The result array is no bypassing buffer. -/
theorem main_v8_not_rest : main_v8 ∉ Pipeline.restRefs sig spec0 := fun h =>
  (Finset.mem_sdiff.mp h).2 (Finset.mem_image.mpr ⟨4, Finset.mem_univ _, rfl⟩)

/-- The device buffers the lines after the region run within: the result array and the bypassing buffers. -/
abbrev S0 : Finset (DevRef τ sig) :=
  (insert main_v8 (Pipeline.restRefs sig spec0)).map ⟨Proc.devRef (sig := sig) (.tc : Proc τ), Proc.devRef_injective _⟩

/-- Those buffers held at a valuation: the result array's buffer and the bypassing buffers, each at its contents there. -/
theorem held_S0 (c : Dev nD) (W : Valuation τ sig (Elt F)) :
    (StableHlo.held (c.tc : Thread nD τ) S0 W : sProp 𝕄)
      = iprop((((c.tc : Thread nD τ).loc main_v8) ↦{fullShare} W (Proc.devRef .tc main_v8))
          ∗ bigSep (Pipeline.restRefs sig spec0) fun b => ((c.tc : Thread nD τ).loc b) ↦{fullShare} W (Proc.devRef .tc b)) := by
  unfold StableHlo.held S0
  rw [bigSep_map, bigSep_insert main_v8_not_rest]
  rfl

/-- An unscoped reference that is no window's array is one of those buffers. -/
theorem mem_S0 (b : Ref sig .tc) (hs : b.isScoped = false) (ha : ∀ w, (spec0 w).arr.view.ref ≠ b) :
    Proc.devRef (τ := τ) .tc b ∈ S0 :=
  Finset.mem_map_of_mem _ (Finset.mem_insert_of_mem (Pipeline.mem_restRefs_of b hs ha))

/-- So is the result array. -/
theorem main_v8_mem_S0 : Proc.devRef (τ := τ) .tc main_v8 ∈ S0 :=
  Finset.mem_map_of_mem _ (Finset.mem_insert_self _ _)

/-- Every line after the region touches only the result array and bypassing buffers. -/
theorem hostOps1_S0 : ∀ op ∈ (hostOps1 : List (HloOp τ sig (Elt F))), op.bufs ⊆ S0 := by
  refine List.forall_iff_forall_mem.mp (?_ : (hostOps1 : List (HloOp τ sig (Elt F))).Forall fun op => op.bufs ⊆ S0)
  refine ⟨?_, ?_, ?_, ?_, ?_, ?_⟩
  · exact Finset.insert_subset_iff.mpr ⟨main_v8_mem_S0, Finset.singleton_subset_iff.mpr (mem_S0 main_v9 rfl (by decide))⟩
  · exact Finset.insert_subset_iff.mpr ⟨mem_S0 main_v9 rfl (by decide), Finset.singleton_subset_iff.mpr (mem_S0 main_v10 rfl (by decide))⟩
  · exact Finset.singleton_subset_iff.mpr (mem_S0 main_cst_0 rfl (by decide))
  · exact Finset.insert_subset_iff.mpr ⟨mem_S0 main_v10 rfl (by decide),
      Finset.insert_subset_iff.mpr ⟨mem_S0 main_cst_0 rfl (by decide), Finset.singleton_subset_iff.mpr (mem_S0 main_v11 rfl (by decide))⟩⟩
  · exact Finset.singleton_subset_iff.mpr (mem_S0 main_cst_1 rfl (by decide))
  · exact Finset.insert_subset_iff.mpr ⟨mem_S0 main_v11 rfl (by decide),
      Finset.insert_subset_iff.mpr ⟨mem_S0 main_cst_1 rfl (by decide), Finset.singleton_subset_iff.mpr (mem_S0 main_v12 rfl (by decide))⟩⟩

/-- No line after the region writes the result array. -/
theorem after_hostOps1_main_v8 (W : Valuation τ sig (Elt F)) :
    StableHlo.after hostOps1 W (Proc.devRef .tc main_v8) = W (Proc.devRef .tc main_v8) :=
  StableHlo.after_of_forall_not_mem (b := Proc.devRef .tc main_v8) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- At the region's exit contents, those buffers held are the result array at what the write-backs left and the
    bypassing buffers at their entry contents. -/
theorem held_S0_exit (dats : (p : Fin 1) → (c : Dev nD) → Dat τ (Elt F) Unit ℕ (UR sig nD τ) ℕ (cfgs p) c) (c : Dev nD) :
    (StableHlo.held (c.tc : Thread nD τ) S0 (Function.update (V0 m c) (Proc.devRef .tc main_v8) ((dats 0 c).arrAt 4 cfg0.N)) : sProp 𝕄)
      = iprop((((c.tc : Thread nD τ).loc main_v8) ↦{fullShare} (dats 0 c).arrAt 4 cfg0.N) ∗ Pipeline.unscopedRest spec0 c (V m c)) := by
  rw [held_S0]; unfold Pipeline.unscopedRest
  refine congrArg₂ _ ?_ (bigSep_congr fun b hb => ?_)
  · rw [Function.update_self]
  · rw [Function.update_of_ne (StableHlo.devRef_ne_of_ne fun e : b = main_v8 => main_v8_not_rest (e ▸ hb))]

/-- After the lines, they are the result array unchanged and the bypassing buffers at `Wfin`. -/
theorem held_S0_fin (dats : (p : Fin 1) → (c : Dev nD) → Dat τ (Elt F) Unit ℕ (UR sig nD τ) ℕ (cfgs p) c) (c : Dev nD) :
    (StableHlo.held (c.tc : Thread nD τ) S0 (Wfin m dats c) : sProp 𝕄)
      = iprop((((c.tc : Thread nD τ).loc main_v8) ↦{fullShare} (dats 0 c).arrAt 4 cfg0.N)
          ∗ Pipeline.unscopedRest spec0 c (fun b => Wfin m dats c (Proc.devRef .tc b))) := by
  rw [held_S0]; unfold Pipeline.unscopedRest
  refine congrArg₂ _ ?_ rfl
  unfold Wfin
  rw [after_hostOps1_main_v8, Function.update_self]

set_option backward.isDefEq.respectTransparency.types false in
/-- The lines after the region, run from the region's exit: they read the result array (held whole) and bypassing
    buffers, write bypassing buffers only, and hand the arrays back as they were and the bypassing buffers at `Wfin`. -/
theorem tail0 (dats : (p : Fin 1) → (c : Dev nD) → Dat τ (Elt F) Unit ℕ (UR sig nD τ) ℕ (cfgs p) c) (c : Dev nD) (Q' : PUnit → sProp 𝕄) :
    iprop((iprop((dats 0 c).arrays ((dats 0 c).arrAt · cfg0.N)
              ∗ Pipeline.unscopedRestP Pipeline.Prefetch.none spec0 c (fun b => Wfin m dats c (Proc.devRef .tc b))) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hs4 : (dats 0 c).share 4 = fullShare := if_pos (by decide)
  have h4 : ∀ X, ((cfg0.win 4).arr.view.loc (c.tc : Thread nD τ) ↦[(cfg0.win 4).arr.view.set]{(dats 0 c).share 4} X : sProp 𝕄)
      = (((c.tc : Thread nD τ).loc main_v8) ↦{fullShare} X) := fun X => by rw [(arr_whole0 4).set_eq_univ, hs4]
  rw [Pipeline.unscopedRestP_none, Pipeline.unscopedRestP_none,
    show [StableHlo.seq (hostOps1 : List (HloOp τ sig (Elt F)))] = List.map StableHlo.seq [hostOps1] ++ [] from rfl]
  unfold Dat.arrays
  rw [bigSep_W0, h4]
  iintro ⟨Hk, Hb, ⟨H0, H1, H2, H3, H4⟩, HZ⟩
  iapply (Pipeline.wp_seqs_then (fun q => (cfgs q).toPCfg (Val := Elt F)) defs₀ Variants.none c S0 [] [hostOps1]
      (fun ops ho op h => by obtain rfl := List.mem_singleton.mp ho; exact hostOps1_S0 op h)
      (fun ops ho op h => by obtain rfl := List.mem_singleton.mp ho; exact (List.forall_iff_forall_mem.mp hostOps1_fresh) op h)
      (Function.update (V0 m c) (Proc.devRef .tc main_v8) ((dats 0 c).arrAt 4 cfg0.N))) $$ [Hb H4 HZ]
  · rw [held_S0_exit]
    isplitl [Hb]; · iexact Hb
    isplitl [H4] <;> iassumption
  iintro Hb
  rw [Pipeline.chain_nil, wp_pure, show List.flatten [(hostOps1 : List (HloOp τ sig (Elt F)))] = hostOps1 from rfl]
  imodintro
  iapply Hk
  icases Hb with ⟨-, Hh⟩
  ihave Hh' := (Entails.of_eq (held_S0_fin m dats c)) $$ Hh
  icases Hh' with ⟨H4, HZ⟩
  isplitr [HZ]
  · isplitl [H0]; · iexact H0
    isplitl [H1]; · iexact H1
    isplitl [H2]; · iexact H2
    isplitl [H3]; · iexact H3
    iexact H4
  · iexact HZ

/-! ## The run -/

/-- THE RUN, for any proof data of the region that hold the shared array at the two half shares (window 0 the left
    half, window 1 the right half) and the other input arrays whole: every weakly fair execution of @main terminates
    and every buffer that bypasses the region ends at `Wfin`. -/
theorem run_around (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (fun r => ∀ c : Dev nD,
      ∀ b ∈ Pipeline.restRefs sig spec0, r.2.mem ((c.tc : Thread nD τ).loc b) = Wfin m dats c (Proc.devRef .tc b)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit0 m dats hq0 hq1 hq2 hq3 hA)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => Wfin m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := tail0 m dats)
    (QY := fun c s => ∀ b ∈ Pipeline.restRefs sig spec0, s.mem ((c.tc : Thread nD τ).loc b) = Wfin m dats c (Proc.devRef .tc b))
    (hY := fun c s' => by
      rw [Pipeline.unscopedRestP_none]; unfold Pipeline.unscopedRest
      iintro ⟨-, HU, HSI⟩
      imodintro
      iapply (pointsTo_read_all (Pipeline.restRefs sig spec0) (fun b => (c.tc : Thread nD τ).loc b) (fun b => Wfin m dats c (Proc.devRef .tc b)) s')
      isplitl [HU] <;> iassumption)
    (hQ := fun s h c => (h c).2.2)

end Cert.KernelIdeal.Hand

end
-- ==== Proof.KernelIdeal.FrameEnd.lean ====
/-
  The end of the idealized kernel program's run: with the body's proof data the launch applies, and since neither a
  host line nor the region writes an argument array, both arguments end as launched.
-/
import proofs.«166555_j42846593744919_1_alg».proof.Proof.KernelIdeal.Body
import proofs.«166555_j42846593744919_1_alg».proof.Proof.KernelIdeal.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region write neither argument. -/
theorem tail_arg0 (W : Valuation τ sig (Elt F)) :
    StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem tail_arg1 (W : Valuation τ sig (Elt F)) :
    StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- So at the end of @main each argument's buffer holds its launch contents. -/
theorem Wfin_arg0 (dats : (p : Fin 1) → (c : Dev nD) → Dat τ (Elt F) Unit ℕ (UR sig nD τ) ℕ (cfgs p) c) (c : Dev nD) :
    Wfin m dats c (Proc.devRef .tc main_arg0) = m ((c : Thread nD τ).loc main_arg0) :=
  (tail_arg0 _).trans ((Function.update_of_ne (StableHlo.devRef_ne_of_ne (by decide)) _ _).trans (V_main_arg0 m c))
theorem Wfin_arg1 (dats : (p : Fin 1) → (c : Dev nD) → Dat τ (Elt F) Unit ℕ (UR sig nD τ) ℕ (cfgs p) c) (c : Dev nD) :
    Wfin m dats c (Proc.devRef .tc main_arg1) = m ((c : Thread nD τ).loc main_arg1) :=
  (tail_arg1 _).trans ((Function.update_of_ne (StableHlo.devRef_ne_of_ne (by decide)) _ _).trans (V_main_arg1 m c))

/-- THE RUN with the body's proof data: every weakly fair execution of @main terminates and every buffer that bypasses
    the region ends at `Wfin`. -/
theorem run_main : θ_run defs (onTc (τ := τ) (main (F := F))) (s₀ m ρ) (fun r => ∀ c : Dev nD,
    ∀ b ∈ Pipeline.restRefs sig spec0, r.2.mem ((c.tc : Thread nD τ).loc b) = Wfin m (dats m) c (Proc.devRef .tc b)) :=
  run_around m ρ (dats m) (fun c => (body_obligation m c).loose) (fun _ => rfl) (fun _ => rfl) (fun _ => rfl) (fun _ => rfl)
    (fun _ _ => rfl) (A_eq m) (hin m) (hout m)

theorem arg0_rest : main_arg0 ∈ Pipeline.restRefs sig spec0 := Pipeline.mem_restRefs_of main_arg0 rfl (by decide)
theorem arg1_rest : main_arg1 ∈ Pipeline.restRefs sig spec0 := Pipeline.mem_restRefs_of main_arg1 rfl (by decide)
theorem v12_rest : main_v12 ∈ Pipeline.restRefs sig spec0 := Pipeline.mem_restRefs_of main_v12 rfl (by decide)

/-- THE FRAME: the program runs to the end and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 arg0_rest).trans (Wfin_arg0 m (dats m) c),
    (h c main_arg1 arg1_rest).trans (Wfin_arg1 m (dats m) c)⟩) (run_main m ρ)

end Cert.KernelIdeal.Hand

end
-- ==== Proof.Spec.lean ====
/-
  The mathematics both programs compute, stated once over plain index types.

  From a matrix `xn` of 8192 rows of length 512 (the rows of the input, each divided by the larger of its Euclidean
  norm and a small constant) and a vector `lab` of 8192 labels: the similarity of rows `r` and `c` is their inner
  product; a pair with equal labels costs `(1 - s)²`, a pair with different labels `max (1 - s) 0 ²`; the result is
  the sum of the cost over ALL ordered pairs, divided by 8192². Everything is read on the extended reals, where
  addition is commutative and associative, so the order in which the 8192² costs are added does not matter.
  The float literals stay as their words: the same word stands on both sides and is never evaluated.
-/
import Idealize.ShloMosaic.PureOps.Ideal
import Idealize.ShloMosaic.Lib.ValueIdx

noncomputable section

open scoped BigOperators

namespace Cert.Contrastive

open Idealize.ShloMosaic Idealize.ShloMosaic.ValueIdx

/-- The normalized matrix and the labels, as arrays. -/
abbrev Mat : Type := (⟨2, ![8192, 512]⟩ : Shape).Idx → EReal
abbrev Lab : Type := (⟨1, ![8192]⟩ : Shape).Idx → BitVec 32

/-- The literal words: one, zero, and 8192² = 2²⁶. -/
abbrev one : EReal := Ideal.ofBits .f32 0x3F800000#32
abbrev zero : EReal := Ideal.ofBits .f32 0x00000000#32
abbrev count : EReal := Ideal.ofBits .f32 0x4C800000#32

/-- The inner product of rows `r` and `c`. -/
def sim (xn : Mat) (r c : Fin 8192) : EReal := ∑ k : Fin 512, xn (ix2 r k) * xn (ix2 c k)

/-- The cost of the ordered pair (`r`, `c`): `(1 - s)²` when the labels agree, else `max (1 - s) 0 ²`; written as the sum of
    the two masked terms, as both programs compute it. -/
def loss (xn : Mat) (lab : Lab) (r c : Fin 8192) : EReal :=
  Scalar.select (Scalar.cmpi .eq (lab (ix1 r)) (lab (ix1 c))) ((one - sim xn r c) * (one - sim xn r c)) zero
    + Scalar.select (Scalar.cmpi .eq (lab (ix1 r)) (lab (ix1 c))) zero (max (one - sim xn r c) zero * max (one - sim xn r c) zero)

/-- The cost summed over every ordered pair. -/
def total (xn : Mat) (lab : Lab) : EReal := ∑ r : Fin 8192, ∑ c : Fin 8192, loss xn lab r c

/-- The result: the mean cost, the sum started from the zero word as both programs start it. -/
def result (xn : Mat) (lab : Lab) : EReal := Ideal.div (zero + total xn lab) count

end Cert.Contrastive

end
-- ==== Proof.KernelIdeal.TileValue.lean ====
/-
  The kernel's arithmetic at one grid point, read at an index, on the extended reals.

  From two blocks of 1024 rows of length 512 of the normalized matrix, a column of 1024 labels and a row of 1024 labels,
  the step forms the 1024 x 1024 tile whose element (p, q) is the cost of row p of the first block against row q of
  the second: with s the inner product of the two rows, (1 - s)² where the labels agree and max (1 - s) 0 ² where they
  differ, written as the sum of the two masked terms. It sums the tile along its columns, then along its rows, spreads
  the one number over an [8, 128] array and adds it to the running total. So every element of the result is the running
  total there plus the sum over all (p, q) of the tile's cost. The remaining payloads are shape casts and the zero word.
-/
import proofs.«166555_j42846593744919_1_alg».proof.Proof.Gen.KernelIdeal.Skeleton
import proofs.«166555_j42846593744919_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx Cert.Contrastive

/-! ## Layout operations at coordinates -/

section Layout
variable {α : Type}

/-- A vector of length a viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its unit axis to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array broadcast to [a, b] reads its one element everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-! ## The product of the two row blocks, read at an index

Both operands are contracted on their axis 1 (length 512); the output's axis 0 is the first operand's axis 0 and its
axis 1 the second operand's axis 0: element (p, q) is the inner product of row p of the first with row q of the second. -/

theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product into the zero accumulator at (p, q): the sum over k of row p of the first operand times row q of the second. -/
theorem dot_at (y0 y1 : FVec Ideal S1024x512 .bf16) (p q : Fin 1024) :
    matmul dot_S1024x512_S1024x512_S1024x1024_1_1_0_0_n_n none y0 y1 (constant (F := Ideal) S1024x1024 .f32 0x00000000#32) (ix2 p q)
      = ∑ k : Fin 512, y0 (ix2 p k) * y1 (ix2 q k) := by
  refine (Ideal.matmul_constant_zero_apply dot_S1024x512_S1024x512_S1024x1024_1_1_0_0_n_n none y0 y1 (ix2 p q)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-! ## The two lane sums -/

/-- The sum along axis 1 of a 1024x1024 array at p: the sum over q of the array at (p, q). -/
theorem rowSum_at (src : FVec Ideal S1024x1024 .f32) (hφ : FKind.Formats .f32)
    (hacc : (0x00000000#32 : BitVec 32) = 0x00000000#32) (p : Fin 1024) :
    multiReduction (F := Ideal) .add [1] S1024 src 0x00000000#32 reduces_S1024x1024_S1024 hφ hacc (ix1 p)
      = ∑ q : Fin 1024, src (ix2 p q) := by
  refine (Ideal.multiReduction_add_single src 0x00000000#32 reduces_S1024x1024_S1024 hφ hacc (ix1 p)).trans ?_
  refine Finset.sum_congr rfl fun q _ => ?_
  exact congrArg src (funext fun a => Fin.ext (by match a with | ⟨0, _⟩ => rfl | ⟨1, _⟩ => rfl))

/-- The sum along axis 0 of a 1024x1 column at its one index: the sum over p of the column at (p, 0). -/
theorem colSum_at (src : FVec Ideal S1024x1 .f32) (hφ : FKind.Formats .f32)
    (hacc : (0x00000000#32 : BitVec 32) = 0x00000000#32) (u : Fin 1) :
    multiReduction (F := Ideal) .add [0] S1 src 0x00000000#32 reduces_S1024x1_S1 hφ hacc (ix1 u)
      = ∑ p : Fin 1024, src (ix2 p (0 : Fin 1)) := by
  refine (Ideal.multiReduction_add_single src 0x00000000#32 reduces_S1024x1_S1 hφ hacc (ix1 u)).trans ?_
  refine Finset.sum_congr rfl fun p _ => ?_
  exact congrArg src (funext fun a => Fin.ext (by
    match a with
    | ⟨0, _⟩ => rfl
    | ⟨1, _⟩ => show (u : ℕ) = 0; omega))

/-! ## The tile of pair costs -/

/-- the cost of row p of the first block against row q of the second, from the blocks alone -/
def tileLoss (x0 x1 : Vec Ideal S1024x512 .bf16) (x2 : Vec Ideal S1024x1 .i32) (x3 : Vec Ideal S1x1024 .i32) (p q : Fin 1024) : EReal :=
  Scalar.select (Scalar.cmpi .eq (x2 (ix2 p (0 : Fin 1)) : BitVec 32) (x3 (ix2 (0 : Fin 1) q)))
      ((one - ∑ k : Fin 512, (x0 (ix2 p k) : EReal) * x1 (ix2 q k)) * (one - ∑ k : Fin 512, (x0 (ix2 p k) : EReal) * x1 (ix2 q k))) zero
    + Scalar.select (Scalar.cmpi .eq (x2 (ix2 p (0 : Fin 1)) : BitVec 32) (x3 (ix2 (0 : Fin 1) q))) zero
      (max (one - ∑ k : Fin 512, (x0 (ix2 p k) : EReal) * x1 (ix2 q k)) zero * max (one - ∑ k : Fin 512, (x0 (ix2 p k) : EReal) * x1 (ix2 q k)) zero)

/-- The tile of inner products of the two row blocks: their product into the zero accumulator. -/
def simOf (x0 x1 : Vec Ideal S1024x512 .bf16) : FVec Ideal S1024x1024 .f32 :=
  matmul (φ₁ := .bf16) (φ₂ := .bf16) dot_S1024x512_S1024x512_S1024x1024_1_1_0_0_n_n none
    (shapeCast S1024x512 x0 shapeCasts_S1024x512_S1024x512) (shapeCast S1024x512 x1 shapeCasts_S1024x512_S1024x512)
    (constant (F := Ideal) S1024x1024 .f32 0x00000000#32)

/-- The label column spread over the tile's columns. -/
def labCol (x2 : Vec Ideal S1024x1 .i32) : IVec S1024x1024 32 :=
  broadcastTo S1024x1024 (shapeCast S1024x1 x2 shapeCasts_S1024x1_S1024x1) broadcasts_S1024x1_S1024x1024

/-- The label row spread over the tile's rows. -/
def labRow (x3 : Vec Ideal S1x1024 .i32) : IVec S1024x1024 32 :=
  broadcastTo S1024x1024 (shapeCast S1x1024 x3 shapeCasts_S1x1024_S1x1024) broadcasts_S1x1024_S1024x1024

/-- The cost tile from the tile of inner products and the two label tiles: where the labels agree (1 - s)², else
    max (1 - s) 0 ², as the sum of the two masked terms. -/
def costOf (s : FVec Ideal S1024x1024 .f32) (l r : IVec S1024x1024 32) : FVec Ideal S1024x1024 .f32 :=
  addf
    (select (cmpi .eq l r)
      (mulf (subf (broadcast S1024x1024 (Scalar.ofBits .f32 0x3F800000#32)) s) (subf (broadcast S1024x1024 (Scalar.ofBits .f32 0x3F800000#32)) s))
      (broadcast S1024x1024 (Scalar.ofBits .f32 0x00000000#32)))
    (select (cmpi .eq l r)
      (broadcast S1024x1024 (Scalar.ofBits .f32 0x00000000#32))
      (mulf (maximumf (subf (broadcast S1024x1024 (Scalar.ofBits .f32 0x3F800000#32)) s) (broadcast S1024x1024 (Scalar.ofBits .f32 0x00000000#32)))
        (maximumf (subf (broadcast S1024x1024 (Scalar.ofBits .f32 0x3F800000#32)) s) (broadcast S1024x1024 (Scalar.ofBits .f32 0x00000000#32)))))

/-- Every operation of the cost tile acts element by element. -/
theorem costOf_apply (s : FVec Ideal S1024x1024 .f32) (l r : IVec S1024x1024 32) (i : S1024x1024.Idx) :
    costOf s l r i
      = Scalar.select (Scalar.cmpi .eq (l i) (r i)) ((one - s i) * (one - s i)) zero
        + Scalar.select (Scalar.cmpi .eq (l i) (r i)) zero (max (one - s i) zero * max (one - s i) zero) := rfl

/-- The inner-product tile at (p, q) is the inner product of row p of the first block with row q of the second. -/
theorem simOf_at (x0 x1 : Vec Ideal S1024x512 .bf16) (p q : Fin 1024) :
    simOf x0 x1 (ix2 p q) = ∑ k : Fin 512, (x0 (ix2 p k) : EReal) * x1 (ix2 q k) := by
  unfold simOf
  rw [shapeCast_self, shapeCast_self]
  exact dot_at x0 x1 p q

/-- The spread label column at (p, q) is the label of row p. -/
theorem labCol_at (x2 : Vec Ideal S1024x1 .i32) (p q : Fin 1024) : labCol x2 (ix2 p q) = x2 (ix2 p (0 : Fin 1)) := by
  unfold labCol
  rw [shapeCast_self]
  exact broadcastTo_a1_ab_apply x2 _ p q

/-- The spread label row at (p, q) is the label of column q. -/
theorem labRow_at (x3 : Vec Ideal S1x1024 .i32) (p q : Fin 1024) : labRow x3 (ix2 p q) = x3 (ix2 (0 : Fin 1) q) := by
  unfold labRow
  rw [shapeCast_self]
  exact broadcastTo_1b_ab_apply x3 _ p q

/-- The cost tile at (p, q) is the cost of row p of the first block against row q of the second. -/
theorem tile_at (x0 x1 : Vec Ideal S1024x512 .bf16) (x2 : Vec Ideal S1024x1 .i32) (x3 : Vec Ideal S1x1024 .i32) (p q : Fin 1024) :
    costOf (simOf x0 x1) (labCol x2) (labRow x3) (ix2 p q) = tileLoss x0 x1 x2 x3 p q := by
  rw [costOf_apply, simOf_at, labCol_at, labRow_at]
  rfl

/-! ## The tile summed to one number and spread over the running total's shape -/

/-- Sum along the columns, view as a column, sum along the rows, view as [1, 1], spread over [8, 128]. -/
def totalOf (T : FVec Ideal S1024x1024 .f32) : FVec Ideal S8x128 .f32 :=
  broadcastTo S8x128
    (shapeCast S1x1
      (shapeCast S1x1
        (multiReduction (F := Ideal) .add [0] S1
          (shapeCast S1024x1
            (multiReduction (F := Ideal) .add [1] S1024 T 0x00000000#32 reduces_S1024x1024_S1024 (.inl rfl) rfl)
            shapeCasts_S1024_S1024x1)
          0x00000000#32 reduces_S1024x1_S1 (.inl rfl) rfl)
        shapeCasts_S1_S1x1)
      shapeCasts_S1x1_S1x1)
    broadcasts_S1x1_S8x128

/-- Every element of the spread total is the sum of the tile over all its rows and columns. -/
theorem tile_total (T : FVec Ideal S1024x1024 .f32) (a : Fin 8) (b : Fin 128) :
    totalOf T (ix2 a b) = ∑ p : Fin 1024, ∑ q : Fin 1024, T (ix2 p q) := by
  unfold totalOf
  refine (broadcastTo_11_ab_apply _ _ a b).trans ?_
  rw [shapeCast_self]
  refine (shapeCast_a_1a_apply _ _ (0 : Fin 1) (0 : Fin 1)).trans ?_
  refine (colSum_at _ _ _ (0 : Fin 1)).trans ?_
  refine Finset.sum_congr rfl fun p _ => ?_
  refine (shapeCast_a_a1_apply _ _ p (0 : Fin 1)).trans ?_
  exact rowSum_at _ _ _ p

/-! ## The payloads at an index -/

/-- The accumulation step is the running total plus the spread total of the cost tile. -/
theorem pay4_eq (x0 x1 : Vec Ideal S1024x512 .bf16) (x2 : Vec Ideal S1024x1 .i32) (x3 : Vec Ideal S1x1024 .i32)
    (v32 : Vec Ideal S8x128 .f32) :
    k0_pay4 (F := Ideal) x0 x1 x2 x3 v32 = addf v32 (totalOf (costOf (simOf x0 x1) (labCol x2) (labRow x3))) := rfl

theorem pay4_apply (x0 x1 : Vec Ideal S1024x512 .bf16) (x2 : Vec Ideal S1024x1 .i32) (x3 : Vec Ideal S1x1024 .i32)
    (v32 : Vec Ideal S8x128 .f32) (j : S8x128.Idx) :
    k0_pay4 (F := Ideal) x0 x1 x2 x3 v32 j = v32 j + ∑ p : Fin 1024, ∑ q : Fin 1024, tileLoss x0 x1 x2 x3 p q := by
  obtain ⟨a, b, rfl⟩ : ∃ (a : Fin 8) (b : Fin 128), j = ix2 a b := ⟨j 0, j 1, eq_ix2 j⟩
  rw [pay4_eq]
  show v32 (ix2 a b) + totalOf (costOf (simOf x0 x1) (labCol x2) (labRow x3)) (ix2 a b) = _
  refine congrArg (v32 (ix2 a b) + ·) ?_
  refine (tile_total _ a b).trans ?_
  exact Finset.sum_congr rfl fun p _ => Finset.sum_congr rfl fun q _ => tile_at x0 x1 x2 x3 p q

/-- A shape cast to the same shape changes nothing. -/
theorem pay1_eq (v35 : FVec Ideal S8x128 .f32) : k0_pay1 (F := Ideal) v35 = v35 := by
  unfold k0_pay1
  exact shapeCast_self v35 _

/-- The zero word spread over [8, 128] and cast to the same shape reads the zero word everywhere. -/
theorem pay3_apply (j : S8x128.Idx) : k0_pay3 (F := Ideal) j = Cert.Contrastive.zero := by
  unfold k0_pay3
  rw [shapeCast_self]
  rfl

/-- An [8, 128] array viewed as [1, 8, 128] reads, at (a, b, d), the array at (b, d). -/
theorem pay2_apply (v42 : Vec Ideal S8x128 .f32) (a : Fin 1) (b : Fin 8) (d : Fin 128) :
    k0_pay2 (F := Ideal) v42 (ix3 a b d) = v42 (ix2 b d) := by
  unfold k0_pay2
  exact shapeCast_ab_1ab_apply v42 _ a b d

end Cert.KernelIdeal.TileValue

end
-- ==== Proof.KernelIdeal.Pieces.lean ====
/-
  What each control case of the kernel body leaves, read back as the kernel's named pure payloads.

  The runs of the three cases found what the body leaves in the scratch (the running total) and in the output block as
  lists of stored pieces. Every store of the body goes through the whole-block rectangle at zero offsets, so the last
  store into a buffer covers it and what the buffer holds afterwards is that store's payload; every load goes through
  the same rectangle and reads the whole buffer, or, after a store in the same run, that store's payload. Hence:
  first column, the tile's total added to the zero block; middle and last columns, the tile's total added to the total
  the point before left; and in the last column the output block is a recast copy of the new total.
-/
import proofs.«166555_j42846593744919_1_alg».proof.Proof.KernelIdeal.Body
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of the whole-block rectangles the body loads and stores through are all zero. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- FIRST COLUMN. The body stores the zero block into the scratch, loads the four input blocks whole, reads the zero
    block back, and stores the new total over it: the later store covers the scratch, so what is left is its payload,
    the tile's total added to the zero block. -/
theorem sout_A_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : cond0 i) (hc1 : ¬cond1 i) (x0 : Vec F S1024x512 .bf16) (x1 : Vec F S1024x512 .bf16) (x2 : Vec F S1024x1 .i32) (x3 : Vec F S1x1024 .i32) :
    sout_A c i arg2 harg2 arg3 harg3 arg4 harg4 arg5 harg5 arg6 harg6 arg7 harg7 hc0 hc1 x0 x1 x2 x3 = k0_pay1 (k0_pay4 x0 x1 x2 x3 (k0_pay3 (F := F))) := by
  unfold sout_A
  rw [View.read_writes_eq_canon _ _ _ (scover_A c i arg2 harg2 arg3 harg3 arg4 harg4 arg5 harg5 arg6 harg6 arg7 harg7 hc0 hc1 x0 x1 x2 x3)]
  unfold kernelRun_A
  dsimp only
  sl_unfold_words
  rw [View.canon_cons_unit_zero (S := S8x128) hz2]
  simp only [View.readAt_eq_ld, harg2.read_unread, harg3.read_unread, harg4.read_unread, harg5.read_unread,
    View.ld_unit_zero (S := S1024x512) hz2, View.ld_unit_zero (S := S1024x1) hz2, View.ld_unit_zero (S := S1x1024) hz2,
    View.readCov_unit_zero (S := S8x128) _ hz2]

/-- MIDDLE COLUMNS. One store covers the scratch: the tile's total added to the total `xs` the point before left, each
    of the five loads reading a whole buffer. -/
theorem sout_B_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : ¬cond1 i) (x0 : Vec F S1024x512 .bf16) (x1 : Vec F S1024x512 .bf16) (x2 : Vec F S1024x1 .i32) (x3 : Vec F S1x1024 .i32) (xs : Vec F S8x128 .f32) :
    sout_B c i arg2 harg2 arg3 harg3 arg4 harg4 arg5 harg5 arg6 harg6 arg7 harg7 hc0 hc1 x0 x1 x2 x3 xs = k0_pay1 (k0_pay4 x0 x1 x2 x3 xs) := by
  unfold sout_B
  rw [View.read_writes_eq_canon _ _ _ (scover_B c i arg2 harg2 arg3 harg3 arg4 harg4 arg5 harg5 arg6 harg6 arg7 harg7 hc0 hc1 x0 x1 x2 x3 xs)]
  unfold kernelRun_B
  dsimp only
  sl_unfold_words
  rw [View.canon_unit_zero (S := S8x128) hz2]
  simp only [View.readAt_eq_ld, harg2.read_unread, harg3.read_unread, harg4.read_unread, harg5.read_unread,
    harg7.read_unread, View.ld_unit_zero (S := S1024x512) hz2, View.ld_unit_zero (S := S1024x1) hz2,
    View.ld_unit_zero (S := S1x1024) hz2, View.ld_unit_zero (S := S8x128) hz2]

/-- LAST COLUMN, the scratch: the same one covering store as in the middle columns. -/
theorem sout_C_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : cond1 i) (x0 : Vec F S1024x512 .bf16) (x1 : Vec F S1024x512 .bf16) (x2 : Vec F S1024x1 .i32) (x3 : Vec F S1x1024 .i32) (xs : Vec F S8x128 .f32) :
    sout_C c i arg2 harg2 arg3 harg3 arg4 harg4 arg5 harg5 arg6 harg6 arg7 harg7 hc0 hc1 x0 x1 x2 x3 xs = k0_pay1 (k0_pay4 x0 x1 x2 x3 xs) := by
  unfold sout_C
  rw [View.read_writes_eq_canon _ _ _ (scover_C c i arg2 harg2 arg3 harg3 arg4 harg4 arg5 harg5 arg6 harg6 arg7 harg7 hc0 hc1 x0 x1 x2 x3 xs)]
  unfold kernelRun_C
  dsimp only
  sl_unfold_words
  rw [View.canon_unit_zero (S := S8x128) hz2]
  simp only [View.readAt_eq_ld, harg2.read_unread, harg3.read_unread, harg4.read_unread, harg5.read_unread,
    harg7.read_unread, View.ld_unit_zero (S := S1024x512) hz2, View.ld_unit_zero (S := S1024x1) hz2,
    View.ld_unit_zero (S := S1x1024) hz2, View.ld_unit_zero (S := S8x128) hz2]

/-- LAST COLUMN, the output block: its one covering store's payload is the scratch read back after the new total was
    stored over it, so the block holds that total recast to the block's shape. -/
theorem out_C_4_eq (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x8x128 .f32) (harg6 : arg6.IsWhole) (arg7 : Memref sig .tc .vmem S8x128 .f32) (harg7 : arg7.IsWhole) (hc0 : ¬cond0 i) (hc1 : cond1 i) (x0 : Vec F S1024x512 .bf16) (x1 : Vec F S1024x512 .bf16) (x2 : Vec F S1024x1 .i32) (x3 : Vec F S1x1024 .i32) (xs : Vec F S8x128 .f32) :
    out_C_4 c i arg2 harg2 arg3 harg3 arg4 harg4 arg5 harg5 arg6 harg6 arg7 harg7 hc0 hc1 x0 x1 x2 x3 xs = k0_pay2 (k0_pay1 (k0_pay4 x0 x1 x2 x3 xs)) := by
  unfold out_C_4
  rw [View.read_writes_eq_canon _ _ _ (cover_C_4 c i arg2 harg2 arg3 harg3 arg4 harg4 arg5 harg5 arg6 harg6 arg7 harg7 hc0 hc1 x0 x1 x2 x3 xs)]
  unfold kernelRun_C
  dsimp only
  sl_unfold_words
  rw [View.canon_unit_zero (S := S1x8x128) hz3]
  simp only [View.readAt_eq_ld, harg2.read_unread, harg3.read_unread, harg4.read_unread, harg5.read_unread,
    harg7.read_unread, View.ld_unit_zero (S := S1024x512) hz2, View.ld_unit_zero (S := S1024x1) hz2,
    View.ld_unit_zero (S := S1x1024) hz2, View.ld_unit_zero (S := S8x128) hz2,
    View.readCov_unit_zero (S := S8x128) _ hz2]

end Cert.KernelIdeal.Hand

end
-- ==== Proof.KernelIdeal.Blocks.lean ====
/-
  The kernel region's input blocks read at an index, and the arrays they are cut from as functions of the program's
  arguments. The grid is 8 x 8; point `t` has coordinates (t / 8, t % 8). At point `t` the region stages rows
  (t / 8) * 1024 ... of the normalized matrix (the row tile), rows (t % 8) * 1024 ... of the same matrix (the column
  tile), the same rows of the label column as the row tile, and columns (t % 8) * 1024 ... of the label row. A block's
  coordinate on an axis is always (block index) * (block size) + the coordinate inside the block, so each block at an
  index is its array at the global index. The label column [8192, 1] and the label row [1, 8192] are the label
  argument [8192] with a unit axis added: row-major positions agree, so both read the argument at the one non-unit
  coordinate. The normalized matrix is the input divided, row by row, by the larger of the row's Euclidean norm and a
  small constant, then rounded to bf16: `xnK` names that composed term.
-/
import proofs.«166555_j42846593744919_1_alg».proof.Proof.KernelIdeal.Entry
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The rows and columns a point stages lie inside the arrays -/

/-- Row tile `t / 8` of eight, 1024 rows each, lies inside the 8192 rows. -/
theorem row_lt (t : Fin cfg0.N) (p : Fin 1024) : t.val / 8 * 1024 + p.val < 8192 := by
  have hN : cfg0.N = 64 := Gen.N_0
  have ht := t.isLt
  have hp := p.isLt
  omega

/-- Column tile `t % 8` of eight, 1024 wide, lies inside the 8192 columns. -/
theorem col_lt (t : Fin cfg0.N) (q : Fin 1024) : t.val % 8 * 1024 + q.val < 8192 := by
  have hq := q.isLt
  omega

/-! ## The index maps, decided over the grid -/

/-- The row tile of the matrix moves with the grid's first coordinate. -/
theorem index0 : ∀ t : Fin cfg0.N, win0_0.index t (0 : Fin 2) = t.val / 8 ∧ win0_0.index t (1 : Fin 2) = 0 :=
  (by decide +kernel : ∀ t : Fin grid0.N, _)
/-- The column tile of the matrix moves with the grid's second coordinate. -/
theorem index1 : ∀ t : Fin cfg0.N, win0_1.index t (0 : Fin 2) = t.val % 8 ∧ win0_1.index t (1 : Fin 2) = 0 :=
  (by decide +kernel : ∀ t : Fin grid0.N, _)
/-- The label column's block moves with the grid's first coordinate. -/
theorem index2 : ∀ t : Fin cfg0.N, win0_2.index t (0 : Fin 2) = t.val / 8 ∧ win0_2.index t (1 : Fin 2) = 0 :=
  (by decide +kernel : ∀ t : Fin grid0.N, _)
/-- The label row's block moves with the grid's second coordinate. -/
theorem index3 : ∀ t : Fin cfg0.N, win0_3.index t (0 : Fin 2) = 0 ∧ win0_3.index t (1 : Fin 2) = t.val % 8 :=
  (by decide +kernel : ∀ t : Fin grid0.N, _)

/-! ## Each block at an index is its array at the global index -/

/-- The row tile at `(p, k)` is the normalized matrix at row `(t / 8) * 1024 + p`, column `k`. -/
theorem iblk0_apply (c : Dev nD) (t : Fin cfg0.N) (p : Fin 1024) (k : Fin 512) :
    (iblk m c 0 t : Vec F S1024x512 .bf16) (ix2 p k) = V m c main_v5 (ix2 ⟨t.val / 8 * 1024 + p.val, row_lt t p⟩ k) := by
  obtain ⟨e0, e1⟩ := index0 t
  unfold iblk
  show V m c main_v5 (((cfg0.win 0).blk t).view.emb (ix2 p k)) = _
  refine congrArg _ ?_
  funext a; apply Fin.ext
  match a with
  | ⟨0, _⟩ => show win0_0.index t (0 : Fin 2) * 1024 + 1 * p.val = t.val / 8 * 1024 + p.val; omega
  | ⟨1, _⟩ => show win0_0.index t (1 : Fin 2) * 512 + 1 * k.val = k.val; omega

/-- The column tile at `(q, k)` is the normalized matrix at row `(t % 8) * 1024 + q`, column `k`. -/
theorem iblk1_apply (c : Dev nD) (t : Fin cfg0.N) (q : Fin 1024) (k : Fin 512) :
    (iblk m c 1 t : Vec F S1024x512 .bf16) (ix2 q k) = V m c main_v5 (ix2 ⟨t.val % 8 * 1024 + q.val, col_lt t q⟩ k) := by
  obtain ⟨e0, e1⟩ := index1 t
  unfold iblk
  show V m c main_v5 (((cfg0.win 1).blk t).view.emb (ix2 q k)) = _
  refine congrArg _ ?_
  funext a; apply Fin.ext
  match a with
  | ⟨0, _⟩ => show win0_1.index t (0 : Fin 2) * 1024 + 1 * q.val = t.val % 8 * 1024 + q.val; omega
  | ⟨1, _⟩ => show win0_1.index t (1 : Fin 2) * 512 + 1 * k.val = k.val; omega

/-- The label column's block at row `p` is the label column at row `(t / 8) * 1024 + p`. -/
theorem iblk2_apply (c : Dev nD) (t : Fin cfg0.N) (p : Fin 1024) :
    (iblk m c 2 t : Vec F S1024x1 .i32) (ix2 p 0) = V m c main_v6 (ix2 ⟨t.val / 8 * 1024 + p.val, row_lt t p⟩ 0) := by
  obtain ⟨e0, e1⟩ := index2 t
  unfold iblk
  show V m c main_v6 (((cfg0.win 2).blk t).view.emb (ix2 p 0)) = _
  refine congrArg _ ?_
  funext a; apply Fin.ext
  match a with
  | ⟨0, _⟩ => show win0_2.index t (0 : Fin 2) * 1024 + 1 * p.val = t.val / 8 * 1024 + p.val; omega
  | ⟨1, _⟩ => show win0_2.index t (1 : Fin 2) * 1 + 1 * 0 = 0; omega

/-- The label row's block at column `q` is the label row at column `(t % 8) * 1024 + q`. -/
theorem iblk3_apply (c : Dev nD) (t : Fin cfg0.N) (q : Fin 1024) :
    (iblk m c 3 t : Vec F S1x1024 .i32) (ix2 0 q) = V m c main_v7 (ix2 0 ⟨t.val % 8 * 1024 + q.val, col_lt t q⟩) := by
  obtain ⟨e0, e1⟩ := index3 t
  unfold iblk
  show V m c main_v7 (((cfg0.win 3).blk t).view.emb (ix2 0 q)) = _
  refine congrArg _ ?_
  funext a; apply Fin.ext
  match a with
  | ⟨0, _⟩ => show win0_3.index t (0 : Fin 2) * 1 + 1 * 0 = 0; omega
  | ⟨1, _⟩ => show win0_3.index t (1 : Fin 2) * 1024 + 1 * q.val = t.val % 8 * 1024 + q.val; omega

/-! ## The label arrays are the label argument with a unit axis added -/

/-- The label column is the label argument read row-major at shape [8192, 1]. -/
theorem V_main_v6_eq (c : Dev nD) :
    (V m c main_v6 : S8192x1.Idx → Elt F .i32)
      = shapeCast S8192x1 (m ((c : Thread nD τ).loc main_arg1) : S8192.Idx → Elt F .i32) shapeCasts_S8192_S8192x1 := by
  dsimp only [V, V0]
  simp only [hostOps0, hostOps0_1, List.flatten_cons, List.flatten_nil, List.append_nil, List.cons_append, List.nil_append]
  after_results
  rfl

/-- The label row is the label argument read row-major at shape [1, 8192]. -/
theorem V_main_v7_eq (c : Dev nD) :
    (V m c main_v7 : S1x8192.Idx → Elt F .i32)
      = shapeCast S1x8192 (m ((c : Thread nD τ).loc main_arg1) : S8192.Idx → Elt F .i32) shapeCasts_S8192_S1x8192 := by
  dsimp only [V, V0]
  simp only [hostOps0, hostOps0_1, List.flatten_cons, List.flatten_nil, List.append_nil, List.cons_append, List.nil_append]
  after_results
  rfl

/-- the label column and row are the label argument reshaped -/
theorem V_main_v6_apply (c : Dev nD) (r : Fin 8192) :
    V m c main_v6 (ix2 r 0) = m ((c : Thread nD τ).loc main_arg1) (ix1 r) := by
  refine (congrFun (V_main_v6_eq m c) (ix2 r 0)).trans ?_
  refine shapeCast_apply _ _ _ (ix1 r) ?_
  rw [Shape.rowMajor_val_two, Shape.rowMajor_val_one]
  show r.val = r.val * 1 + 0
  omega

/-- Position `(0, r)` of a [1, 8192] array and position `r` of an [8192] array are the same row-major position. -/
theorem V_main_v7_apply (c : Dev nD) (r : Fin 8192) :
    V m c main_v7 (ix2 0 r) = m ((c : Thread nD τ).loc main_arg1) (ix1 r) := by
  refine (congrFun (V_main_v7_eq m c) (ix2 0 r)).trans ?_
  refine shapeCast_apply _ _ _ (ix1 r) ?_
  rw [Shape.rowMajor_val_two, Shape.rowMajor_val_one]
  show r.val = 0 * 8192 + r.val
  omega

/-! ## The normalized matrix -/

/-- the normalized matrix as a function of the input argument: each row of `x` divided by the larger of its
    Euclidean norm (the square root of the row's sum of squares) and the constant, rounded to bf16. -/
def xnK (x : (⟨S8192x512, .f32⟩ : BufTy).Contents (Elt F)) : (⟨S8192x512, .bf16⟩ : BufTy).Contents (Elt F) :=
  truncf .bf16
    (Host.divf x
      (broadcastInDim S8192x512 ![0, 1] bcast_S8192x1_S8192x512_0_1
        (maximumf
          (Host.sqrt
            (broadcastInDim S8192x1 ![0] bcast_S8192_S8192x1_0
              (Host.reduceAdd (mulf x x) (constant S_ .f32 0x00000000#32) reducesTo_S8192x512_S8192_d1 h_S_)))
          (broadcastInDim S8192x1 ![] bcast_S_S8192x1 (constant S_ .f32 0x322BCC77#32)))))
    bitsLt_bf16_f32

/-- The region finds the normalized matrix of the input argument: the host operations before it, composed. -/
theorem V_main_v5 (c : Dev nD) : V m c main_v5 = xnK (m ((c : Thread nD τ).loc main_arg0)) := by
  dsimp only [V, V0]
  simp only [hostOps0, hostOps0_1, List.flatten_cons, List.flatten_nil, List.append_nil, List.cons_append, List.nil_append]
  after_results
  rfl

end Cert.KernelIdeal.Hand

end
-- ==== Proof.KernelIdeal.FinalArray.lean ====
/-
  From the output window's blocks to its array.

  The output array has shape 8 x 8 x 128 and is written back in blocks of shape 1 x 8 x 128: the grid point
  `t` of the 8 x 8 grid (row `t / 8`, column `t mod 8`) writes block `t / 8` back, and only in the last column
  (`t mod 8 = 7`). The eight blocks written, one per row, are disjoint slabs that tile the array. When each written
  block is constant, holding one number `g (t / 8)`, the array therefore ends holding `g i` at every index whose
  first coordinate is `i`.
-/
import proofs.«166555_j42846593744919_1_alg».proof.Proof.KernelIdeal.Body
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row of a grid point is below 8: the grid has 64 points. -/
theorem blk_lt8 (t : Fin cfg0.N) : t.val / 8 < 8 := by
  have hN : t.val < 64 := lt_of_lt_of_eq t.isLt (show cfg0.N = 64 from N_0)
  omega

/-- The array that is constant on each slab: at an index with first coordinate `i` it holds `g i`. -/
abbrev slabConst (g : Fin 8 → Elt F .f32) : (⟨S8x8x128, .f32⟩ : BufTy).Contents (Elt F) :=
  fun idx => g ⟨(idx 0).val, (idx 0).isLt⟩

/-- The output window's block index at point `t` is `(t / 8, 0, 0)`, decided over the grid. -/
theorem outIndex_facts : ∀ t : Fin cfg0.N, win0_4.index t (0 : Fin 3) = t.val / 8 ∧ win0_4.index t (1 : Fin 3) = 0 ∧ win0_4.index t (2 : Fin 3) = 0 :=
  (by decide +kernel : ∀ t : Fin grid0.N, win0_4.index t (0 : Fin 3) = t.val / 8 ∧ win0_4.index t (1 : Fin 3) = 0 ∧ win0_4.index t (2 : Fin 3) = 0)

/-- What a last-column point `t` writes back is block `t / 8` of the slab-constant array: the window is not cut, so
    the block written is what the body left; it is constant `g (t / 8)`; and the block's first coordinate in the array
    is `(t / 8) * 1 + 1 * y₀` with `y₀ < 1`, that is `t / 8`. -/
theorem flushed_out_eq (c : Dev nD) (g : Fin 8 → Elt F .f32)
    (h : ∀ (t : Fin cfg0.N) (ht : t.val % 8 = 7) (y : S1x8x128.Idx),
           ((dats m 0 c).after 4 t : Vec F S1x8x128 .f32) y = g ⟨t.val / 8, blk_lt8 t⟩)
    (t : Fin cfg0.N) (hf : (cfg0.win 4).flush t = true) :
    (dats m 0 c).flushed 4 t = ((cfg0.win 4).blk t).view.read (Elt F) (slabConst g) := by
  have ht : t.val % 8 = 7 := (flush0_4 t).mp hf
  show (cfg0.win 4).cut (grid0.coords t) ((dats m 0 c).after 4 t) = _
  funext y
  obtain ⟨e0, e1, e2⟩ := outIndex_facts t
  have hy : ((cfg0.win 4).cut (grid0.coords t) ((dats m 0 c).after 4 t)) y = ((dats m 0 c).after 4 t : Vec F S1x8x128 .f32) y := rfl
  rw [hy, h t ht y]
  show g ⟨t.val / 8, blk_lt8 t⟩ = g ⟨((((cfg0.win 4).blk t).view.emb y) 0).val, _⟩
  congr 1
  apply Fin.ext
  show t.val / 8 = win0_4.index t (0 : Fin 3) * 1 + 1 * (y 0).val
  have hy0 : (y 0).val < 1 := (y 0).isLt
  omega

/-- An index of the array is in point `t`'s block iff each coordinate is in the block's range on its axis. -/
theorem mem_outBlock (t : Fin cfg0.N) (idx : S8x8x128.Idx) :
    idx ∈ ((cfg0.win 4).blk t).view.set ↔ ∀ a : Fin 3, win0_4.index t a * S1x8x128.size a ≤ (idx a).val ∧ (idx a).val < win0_4.index t a * S1x8x128.size a + S1x8x128.size a := by
  show idx ∈ ((View.whole main_v8).slice (win0_4.rect t)).set ↔ _
  rw [View.set_slice_whole, Rect.mem_set_unit]
  exact Iff.rfl

/-- The written blocks cover the array: the index `(i, a, b)` lies in the block of the point `8 i + 7`, the last
    column of row `i`, whose block index is `((8 i + 7) / 8, 0, 0) = (i, 0, 0)`. -/
theorem outBlocks_cover (idx : S8x8x128.Idx) :
    ∃ t : Fin cfg0.N, (cfg0.win 4).flush t = true ∧ idx ∈ ((cfg0.win 4).blk t).view.set := by
  have h0 : (idx 0).val < 8 := (idx 0).isLt
  have h1 : (idx 1).val < 8 := (idx 1).isLt
  have h2 : (idx 2).val < 128 := (idx 2).isLt
  have hlt : 8 * (idx 0).val + 7 < cfg0.N := lt_of_lt_of_eq (by omega : 8 * (idx 0).val + 7 < 64) (show cfg0.N = 64 from N_0).symm
  refine ⟨⟨8 * (idx 0).val + 7, hlt⟩, (flush0_4 _).mpr (by show (8 * (idx 0).val + 7) % 8 = 7; omega), ?_⟩
  rw [mem_outBlock]
  obtain ⟨e0, e1, e2⟩ := outIndex_facts ⟨8 * (idx 0).val + 7, hlt⟩
  have e0' : win0_4.index ⟨8 * (idx 0).val + 7, hlt⟩ (0 : Fin 3) = (8 * (idx 0).val + 7) / 8 := e0
  intro a
  match a with
  | ⟨0, _⟩ => show win0_4.index ⟨8 * (idx 0).val + 7, hlt⟩ (0 : Fin 3) * 1 ≤ (idx 0).val ∧ (idx 0).val < win0_4.index ⟨8 * (idx 0).val + 7, hlt⟩ (0 : Fin 3) * 1 + 1; omega
  | ⟨1, _⟩ => show win0_4.index ⟨8 * (idx 0).val + 7, hlt⟩ (1 : Fin 3) * 8 ≤ (idx 1).val ∧ (idx 1).val < win0_4.index ⟨8 * (idx 0).val + 7, hlt⟩ (1 : Fin 3) * 8 + 8; omega
  | ⟨2, _⟩ => show win0_4.index ⟨8 * (idx 0).val + 7, hlt⟩ (2 : Fin 3) * 128 ≤ (idx 2).val ∧ (idx 2).val < win0_4.index ⟨8 * (idx 0).val + 7, hlt⟩ (2 : Fin 3) * 128 + 128; omega

/-- The array after all write-backs: `g i` at every index `(i, a, b)`, when each last-column point `t` leaves its block
    constant `g (t / 8)`. -/
theorem arr8_of_after (c : Dev nD) (g : Fin 8 → Elt F .f32)
    (h : ∀ (t : Fin cfg0.N) (ht : t.val % 8 = 7) (y : S1x8x128.Idx),
           ((dats m 0 c).after 4 t : Vec F S1x8x128 .f32) y = g ⟨t.val / 8, blk_lt8 t⟩)
    (i : Fin 8) (a : Fin 8) (b : Fin 128) :
    ((dats m 0 c).arrAt 4 cfg0.N : (⟨S8x8x128, .f32⟩ : BufTy).Contents (Elt F)) (ix3 i a b) = g i :=
  congrFun ((dats m 0 c).arrAt_eq_of_cover 4 (slabConst g) (fun t hf => flushed_out_eq m c g h t hf) outBlocks_cover) (ix3 i a b)

end Cert.KernelIdeal.Hand

end
-- ==== Proof.LibTileSum.lean ====
/-
Regrouping a finite sum into blocks and tiles.

A total over an index range of length `N = A * n` may be taken block by block:
first the sum inside each of the `A` consecutive blocks of length `n`, then the
sum of the `A` block totals.  Every index `r < A * n` is `i * n + p` for exactly
one pair `(i, p)` with `i < A` and `p < n` (quotient and remainder by `n`), so the
pairs enumerate the indices once each; addition in a commutative monoid is
associative and commutative, so the order and the bracketing of the terms do not
change the total.  In two dimensions the same regrouping is done on the rows and on
the columns, and the two tile indices are brought outermost by exchanging the order
of two finite sums.  Finally, a loop that keeps a running total (a left fold of
additions) ends with the start value plus the sum of the terms it met.
-/
import Mathlib.Algebra.BigOperators.Fin
import Mathlib.Algebra.BigOperators.Group.Finset.Basic
import Mathlib.Algebra.BigOperators.Group.Finset.Sigma
import Mathlib.Data.Fintype.BigOperators
import Mathlib.Data.List.FinRange
import Mathlib.Logic.Equiv.Fin.Basic

open scoped BigOperators

namespace Cert.LibTileSum

variable {M : Type*} [AddCommMonoid M]

/-- the `p`-th place of the `i`-th block of length `n` lies inside a range of length
`N = A * n`: `i * n + p < i * n + n = (i + 1) * n ≤ A * n` -/
theorem blk_lt {A n N : ℕ} (h : A * n = N) (i : Fin A) (p : Fin n) :
    i.val * n + p.val < N := by
  subst h
  calc i.val * n + p.val < i.val * n + n := Nat.add_lt_add_left p.isLt _
    _ = (i.val + 1) * n := (Nat.succ_mul _ _).symm
    _ ≤ A * n := Nat.mul_le_mul_right _ i.isLt

/-- a sum over `Fin N` with `N = A * n` is the sum over the A blocks of the sum inside
each block of length n -/
theorem sum_blocks {A n N : ℕ} (h : A * n = N) (g : Fin N → M) :
    ∑ r : Fin N, g r
      = ∑ i : Fin A, ∑ p : Fin n, g ⟨i.val * n + p.val, blk_lt h i p⟩ := by
  subst h
  -- the pairs `(i, p)` enumerate `Fin (A * n)` once each, by `(i, p) ↦ p + n * i`
  rw [← Fintype.sum_prod_type']
  refine (Fintype.sum_equiv finProdFinEquiv _ _ ?_).symm
  rintro ⟨i, p⟩
  refine congrArg g (Fin.ext ?_)
  show i.val * n + p.val = p.val + n * i.val
  rw [Nat.add_comm, Nat.mul_comm]

/-- the same in two dimensions, the tiles outermost -/
theorem sum_tiles {A n N B n' N' : ℕ} (h : A * n = N) (h' : B * n' = N')
    (f : Fin N → Fin N' → M) :
    ∑ r : Fin N, ∑ c : Fin N', f r c
      = ∑ i : Fin A, ∑ j : Fin B, ∑ p : Fin n, ∑ q : Fin n',
          f ⟨i.val * n + p.val, blk_lt h i p⟩ ⟨j.val * n' + q.val, blk_lt h' j q⟩ := by
  -- rows into blocks
  rw [sum_blocks h (fun r => ∑ c : Fin N', f r c)]
  refine Finset.sum_congr rfl (fun i _ => ?_)
  -- columns into blocks, inside each row
  have hcols : ∀ p : Fin n,
      ∑ c : Fin N', f ⟨i.val * n + p.val, blk_lt h i p⟩ c
        = ∑ j : Fin B, ∑ q : Fin n',
            f ⟨i.val * n + p.val, blk_lt h i p⟩ ⟨j.val * n' + q.val, blk_lt h' j q⟩ :=
    fun p => sum_blocks h' (fun c => f ⟨i.val * n + p.val, blk_lt h i p⟩ c)
  rw [Finset.sum_congr rfl (fun p _ => hcols p)]
  -- the column-tile index passes in front of the row place
  exact Finset.sum_comm

/-- a left fold of additions from `a` over a list is `a` plus the sum of the terms
met along the list -/
theorem list_foldl_add_eq_sum {ι : Type*} (t : ι → M) (l : List ι) (a : M) :
    l.foldl (fun acc j => acc + t j) a = a + (l.map t).sum := by
  induction l generalizing a with
  | nil => simp
  | cons x xs ih =>
    rw [List.foldl_cons, ih, List.map_cons, List.sum_cons, add_assoc]

/-- a left fold of additions from `a` over `Fin k` is `a` plus the sum: the running total
a loop keeps -/
theorem foldl_add_eq_sum (k : ℕ) (a : M) (t : Fin k → M) :
    (List.finRange k).foldl (fun acc j => acc + t j) a = a + ∑ j, t j := by
  rw [list_foldl_add_eq_sum, ← List.ofFn_eq_map, List.sum_ofFn]

end Cert.LibTileSum
-- ==== Proof.KernelIdeal.Accum.lean ====
/-
  The value the idealized kernel leaves: by induction over the grid points the scratch holds, after point `t`, the
  zero word plus the totals of the tiles of tile-row `t / 8` up to column `t mod 8`; the last column copies it to the
  output block; so entry (`i`, ·, ·) of the result array is the total of tile-row `i`, and the eight of them add up to
  the cost summed over every ordered pair of rows (a sum over 8192 x 8192 pairs regrouped by tiles).
-/
import proofs.«166555_j42846593744919_1_alg».proof.Proof.KernelIdeal.Body
import proofs.«166555_j42846593744919_1_alg».proof.Proof.KernelIdeal.TileValue
import proofs.«166555_j42846593744919_1_alg».proof.Proof.KernelIdeal.Pieces
import proofs.«166555_j42846593744919_1_alg».proof.Proof.KernelIdeal.Blocks
import proofs.«166555_j42846593744919_1_alg».proof.Proof.KernelIdeal.FinalArray
import proofs.«166555_j42846593744919_1_alg».proof.Proof.Spec
import proofs.«166555_j42846593744919_1_alg».proof.Proof.LibTileSum
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Contrastive
open scoped BigOperators
open Cert.KernelIdeal.TileValue

variable (m : (ℓ : Loc nD τ sig) → Buf (Elt Ideal) ℓ)

/-- The normalized matrix and the labels the region finds, as the specification's arrays. -/
abbrev xnA (c : Dev nD) : Mat := V m c main_v5
abbrev labA (c : Dev nD) : Lab := m ((c : Thread nD τ).loc main_arg1)

/-- The total cost of tile (`i`, `j`): rows `1024 i …` against rows `1024 j …`. -/
def tileTot (c : Dev nD) (i j : ℕ) : EReal :=
  if h : i < 8 ∧ j < 8 then
    ∑ p : Fin 1024, ∑ q : Fin 1024, loss (xnA m c) (labA m c) ⟨i * 1024 + p.val, by omega⟩ ⟨j * 1024 + q.val, by omega⟩
  else 0

/-- At point `t` the blocks' total is the total of tile (`t / 8`, `t % 8`). -/
theorem tile_eq (c : Dev nD) (t : Fin cfg0.N) :
    (∑ p : Fin 1024, ∑ q : Fin 1024, tileLoss (iblk m c 0 t) (iblk m c 1 t) (iblk m c 2 t) (iblk m c 3 t) p q)
      = tileTot m c (t.val / 8) (t.val % 8) := by
  have hN : t.val < 64 := lt_of_lt_of_eq t.isLt (show cfg0.N = 64 from N_0)
  unfold tileTot
  rw [dif_pos ⟨by omega, by omega⟩]
  refine Finset.sum_congr rfl fun p _ => Finset.sum_congr rfl fun q _ => ?_
  unfold tileLoss loss sim
  simp only [iblk0_apply m c t, iblk1_apply m c t, iblk2_apply m c t, iblk3_apply m c t, V_main_v6_apply m c, V_main_v7_apply m c]

/-- THE RUNNING TOTAL. After point `n` every entry of the scratch is the zero word plus the totals of the tiles of the
    current row of tiles up to the current column. -/
theorem scratch_after (c : Dev nD) : ∀ (n : ℕ) (hn : n < cfg0.N),
    (outsAt m c n hn).2 = fun _ => zero + ∑ jj ∈ Finset.range (n % 8 + 1), tileTot m c (n / 8) jj := by
  intro n
  induction n with
  | zero =>
    intro hn
    have h := outsAt_A m c ⟨0, hn⟩ (Nat.zero_mod 8) (by dsimp only; omega)
    rw [show outsAt m c 0 hn = outsAt m c (⟨0, hn⟩ : Fin cfg0.N).val (⟨0, hn⟩ : Fin cfg0.N).isLt from rfl, h]
    dsimp only
    rw [sout_A_eq, pay1_eq]
    funext j
    rw [pay4_apply, pay3_apply, tile_eq]
    simp
  | succ n ih =>
    intro hn
    have hN : n + 1 < 64 := lt_of_lt_of_eq hn (show cfg0.N = 64 from N_0)
    have ihn := ih (Nat.lt_of_succ_lt hn)
    by_cases h0 : (n + 1) % 8 = 0
    · have h := outsAt_A m c ⟨n + 1, hn⟩ h0 (by dsimp only; omega)
      rw [show outsAt m c (n + 1) hn = outsAt m c (⟨n + 1, hn⟩ : Fin cfg0.N).val (⟨n + 1, hn⟩ : Fin cfg0.N).isLt from rfl, h]
      dsimp only
      rw [sout_A_eq, pay1_eq]
      funext j
      rw [pay4_apply, pay3_apply, tile_eq]
      simp [h0]
    · have hprev : (outsAt m c ((⟨n + 1, hn⟩ : Fin cfg0.N).val - 1) (Nat.lt_of_le_of_lt (Nat.sub_le _ _) (⟨n + 1, hn⟩ : Fin cfg0.N).isLt)).2
          = fun _ => zero + ∑ jj ∈ Finset.range (n % 8 + 1), tileTot m c (n / 8) jj := ihn
      have hdiv : (n + 1) / 8 = n / 8 := by omega
      have hmod : (n + 1) % 8 = n % 8 + 1 := by omega
      by_cases h1 : (n + 1) % 8 = 7
      · have h := outsAt_C m c ⟨n + 1, hn⟩ h0 h1
        rw [show outsAt m c (n + 1) hn = outsAt m c (⟨n + 1, hn⟩ : Fin cfg0.N).val (⟨n + 1, hn⟩ : Fin cfg0.N).isLt from rfl, h]
        dsimp only
        rw [sout_C_eq, pay1_eq, hprev]
        funext j
        rw [pay4_apply, tile_eq]
        dsimp only
        rw [hdiv, hmod, Finset.sum_range_succ (fun jj => tileTot m c (n / 8) jj) (n % 8 + 1), add_assoc]
      · have h := outsAt_B m c ⟨n + 1, hn⟩ h0 h1
        rw [show outsAt m c (n + 1) hn = outsAt m c (⟨n + 1, hn⟩ : Fin cfg0.N).val (⟨n + 1, hn⟩ : Fin cfg0.N).isLt from rfl, h]
        dsimp only
        rw [sout_B_eq, pay1_eq, hprev]
        funext j
        rw [pay4_apply, tile_eq]
        dsimp only
        rw [hdiv, hmod, Finset.sum_range_succ (fun jj => tileTot m c (n / 8) jj) (n % 8 + 1), add_assoc]

/-- In the last column the output block is a copy of the running total. -/
theorem out_after (c : Dev nD) (t : Fin cfg0.N) (ht : t.val % 8 = 7) (y : S1x8x128.Idx) :
    ((dats m 0 c).after 4 t : Vec Ideal S1x8x128 .f32) y = zero + ∑ jj ∈ Finset.range 8, tileTot m c (t.val / 8) jj := by
  have hN : t.val < 64 := lt_of_lt_of_eq t.isLt (show cfg0.N = 64 from N_0)
  obtain ⟨a, b, d, rfl⟩ : ∃ (a : Fin 1) (b : Fin 8) (d : Fin 128), y = ix3 a b d := ⟨y 0, y 1, y 2, eq_ix3 y⟩
  have hz : t.val ≠ 0 := by omega
  rw [after4, outsAt_C m c t (by omega) ht]
  dsimp only
  have hs := scratch_after m c t.val t.isLt
  rw [outsAt_C m c t (by omega) ht] at hs
  dsimp only at hs
  rw [sout_C_eq] at hs
  rw [out_C_4_eq, pay2_apply, hs]
  dsimp only
  rw [ht]

/-- THE RESULT ARRAY: entry (`i`, ·, ·) holds the zero word plus the totals of the eight tiles of row `i` of tiles. -/
theorem arr8_value (c : Dev nD) (i : Fin 8) (a : Fin 8) (b : Fin 128) :
    ((dats m 0 c).arrAt 4 cfg0.N : (⟨S8x8x128, .f32⟩ : BufTy).Contents (Elt Ideal)) (ix3 i a b)
      = zero + ∑ jj ∈ Finset.range 8, tileTot m c i.val jj :=
  arr8_of_after m c (fun i => zero + ∑ jj ∈ Finset.range 8, tileTot m c i.val jj) (fun t ht y => out_after m c t ht y) i a b

/-- The eight partial totals add up to the cost summed over every ordered pair. -/
theorem partials_total (c : Dev nD) :
    (∑ i : Fin 8, (zero + ∑ jj ∈ Finset.range 8, tileTot m c i.val jj)) = total (xnA m c) (labA m c) := by
  unfold total
  rw [Cert.LibTileSum.sum_tiles (A := 8) (n := 1024) (N := 8192) (B := 8) (n' := 1024) (N' := 8192) rfl rfl]
  refine Finset.sum_congr rfl fun i _ => ?_
  rw [show (zero : EReal) = 0 from Ideal.ofBits_zero_f32, zero_add, ← Fin.sum_univ_eq_sum_range (fun jj => tileTot m c i.val jj) 8]
  refine Finset.sum_congr rfl fun j _ => ?_
  unfold tileTot
  rw [dif_pos ⟨i.isLt, j.isLt⟩]

end Cert.KernelIdeal.Hand

end
-- ==== Proof.KernelIdeal.Tail.lean ====
/-
  The six host operations that follow the kernel region, read at the program's result.

  The region leaves an array `A` of shape [8, 8, 128]; entry (i, 0, 0) of it is the i-th partial total. The six
  operations take the corner slice [0:8, 0:1, 0:1] (shape [8, 1, 1]), flatten it to a vector of 8 entries, add the 8
  entries up starting from the zero word, and divide by the word of 2²⁶. On the extended reals the sum from an initial
  value is that value plus the finite sum, so the result is (zero + Σ_{i<8} A(i,0,0)) / 2²⁶ at the one index of the
  rank-0 result. None of the six operations writes either argument of the program, so both keep their contents.
  The two float words stay as words and are never evaluated.
-/
import proofs.«166555_j42846593744919_1_alg».proof.Proof.Gen.KernelIdeal.Launch
import proofs.«166555_j42846593744919_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tail

open Cert.KernelIdeal Cert.KernelIdeal.Gen Idealize.ShloMosaic Idealize.ShloMosaic.TcCoe Idealize.SL.Sem Idealize.ShloMosaic.ValueIdx

/-- The index set of a one-axis array is the range of its one coordinate. -/
def idxEquiv1 {n : Nat} : (⟨1, ![n]⟩ : Shape).Idx ≃ Fin n where
  toFun j := j 0
  invFun k := ix1 k
  left_inv j := (eq_ix1 j).symm
  right_inv _ := rfl

/-- A sum over the indices of a one-axis array is the sum over its coordinate. -/
theorem sum_idx1 {M : Type*} [AddCommMonoid M] {n : Nat} (f : (⟨1, ![n]⟩ : Shape).Idx → M) :
    ∑ j, f j = ∑ k : Fin n, f (ix1 k) :=
  (Equiv.sum_comp (idxEquiv1 (n := n)).symm f).symm

/-- Entry `k` of the flattened corner slice is entry (k, 0, 0) of the array: the flattening keeps the row-major
    position, which for (k, 0, 0) in [8, 1, 1] is (k·1 + 0)·1 + 0 = k, and the slice has offset 0 on every axis. -/
theorem slice_reshape_apply (A : (⟨S8x8x128, .f32⟩ : BufTy).Contents (Elt Ideal)) (k : Fin 8) :
    shapeCast S8 (extractStridedSlice S8x1x1 ![0, 0, 0] A slices_S8x8x128_S8x1x1_0_0_0) shapeCasts_S8x1x1_S8 (ix1 k)
      = A (ix3 k 0 0) := by
  refine (shapeCast_apply _ shapeCasts_S8x1x1_S8 (ix1 k) (ix3 k 0 0) ?_).trans ?_
  · rw [Shape.rowMajor_val_three, Shape.rowMajor_val_one]
    show ((k.val * 1 + 0) * 1 + 0) = k.val
    omega
  · exact extractStridedSlice_apply _ A slices_S8x8x128_S8x1x1_0_0_0 (ix3 k 0 0) (ix3 k 0 0) (fun a => match a with
      | ⟨0, _⟩ => (Nat.zero_add _).symm
      | ⟨1, _⟩ => rfl
      | ⟨2, _⟩ => rfl)

/-- at the exact instance the result buffer after the six lines is the mean: (zero + the sum of the eight partial totals, read at entry (i,0,0)) divided by 2²⁶ -/
theorem tail_value (W : Valuation τ sig (Elt Ideal)) (A : (⟨S8x8x128, .f32⟩ : BufTy).Contents (Elt Ideal)) :
    StableHlo.after (hostOps1 (F := Ideal)) (Function.update W (Proc.devRef .tc main_v8) A) (Proc.devRef .tc main_v12)
      = fun _ => Ideal.div (Cert.Contrastive.zero + ∑ i : Fin 8, A (ix3 i 0 0)) Cert.Contrastive.count := by
  -- the fold at the result buffer is the six operations' functions composed, applied to the array just placed
  show StableHlo.after hostOps1 _ (Proc.devRef .tc main_v12) = _
  after_results
  rw [Function.update_self]
  funext j
  -- at the one index: the quotient is the exact division, the host sum the exact sum from the zero word
  show Ideal.div (Ideal.hostReduceAdd reducesTo_S8_S_d0
      (fun i => shapeCast S8 (extractStridedSlice S8x1x1 ![0, 0, 0] A slices_S8x8x128_S8x1x1_0_0_0) shapeCasts_S8x1x1_S8 i)
      (Ideal.ofBits .f32 0x00000000#32) j) (Ideal.ofBits .f32 0x4C800000#32) = _
  -- every axis of the rank-0 result has size one, so the sum runs over all 8 indices of the vector
  rw [Ideal.hostReduceAdd_total reducesTo_S8_S_d0 (fun b => b.elim0), sum_idx1]
  exact congrArg (fun s => Ideal.div (Cert.Contrastive.zero + s) Cert.Contrastive.count)
    (Finset.sum_congr rfl fun k _ => slice_reshape_apply A k)

/-- at any instance the six lines write neither argument -/
theorem tail_arg0 {F : FTy → Type} [FloatOps F] (W : Valuation τ sig (Elt F)) :
    StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

theorem tail_arg1 {F : FTy → Type} [FloatOps F] (W : Valuation τ sig (Elt F)) :
    StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

end Cert.KernelIdeal.Tail

end
-- ==== Proof.KernelIdeal.KernelValue.lean ====
/-
  The idealized kernel program's result: the host lines after the region take entry (i, 0, 0) of the result array for
  each of the eight tile-rows, add them from zero and divide by 8192² — the specification's mean cost.
-/
import proofs.«166555_j42846593744919_1_alg».proof.Proof.KernelIdeal.Accum
import proofs.«166555_j42846593744919_1_alg».proof.Proof.KernelIdeal.Tail
import proofs.«166555_j42846593744919_1_alg».proof.Proof.KernelIdeal.FrameEnd

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Contrastive
open scoped BigOperators

variable (m : (ℓ : Loc nD τ sig) → Buf (Elt Ideal) ℓ)

/-- At the end of @main the result buffer holds the specification's result of the normalized matrix and the labels. -/
theorem kernel_result (c : Dev nD) :
    Wfin m (dats m) c (Proc.devRef .tc main_v12) = fun _ => result (xnA m c) (labA m c) := by
  have key : ∀ (A : (⟨S8x8x128, .f32⟩ : BufTy).Contents (Elt Ideal)),
      (∀ i : Fin 8, A (ix3 i 0 0) = zero + ∑ jj ∈ Finset.range 8, tileTot m c i.val jj) →
      StableHlo.after (hostOps1 (F := Ideal)) (Function.update (V0 m c) (Proc.devRef .tc main_v8) A) (Proc.devRef .tc main_v12)
        = fun _ => result (xnA m c) (labA m c) := by
    intro A hA
    refine (Cert.KernelIdeal.Tail.tail_value (V0 m c) A).trans ?_
    funext _
    unfold result
    rw [Finset.sum_congr rfl fun i _ => hA i, partials_total]
  exact key _ (fun i => arr8_value m c i 0 0)

end Cert.KernelIdeal.Hand

end
-- ==== Proof.RefValue.lean ====
/-
  The idealized reference's result is the specification's: the mean, over all ordered pairs of rows, of the pair cost
  of the normalized rows.
-/
import proofs.«166555_j42846593744919_1_alg».proof.Defs
import proofs.«166555_j42846593744919_1_alg».proof.Proof.Gen.ReferenceIdeal.Run
import proofs.«166555_j42846593744919_1_alg».proof.Proof.Gen.ReferenceIdeal.Read
import proofs.«166555_j42846593744919_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen

/-- The reference's normalized matrix as a function of the input array: each row divided by the larger of its
    Euclidean norm and the small constant. -/
def xnR (x : (⟨S8192x512, .f32⟩ : BufTy).Contents (Elt Ideal)) : (⟨S8192x512, .f32⟩ : BufTy).Contents (Elt Ideal) :=
  Read.val_main_v4 (F := Ideal) x

/-- Equality of two 32-bit words does not depend on the order in which they are compared. -/
theorem cmpi_eq_comm (a b : BitVec 32) : IntOp.cmpi .eq a b = IntOp.cmpi .eq b a := by
  unfold IntOp.cmpi
  exact congrArg BitVec.ofBool (Bool.beq_comm)

/-- The product matrix at (`r`, `c`): the contraction runs over the row of the normalized matrix and the column of
    its transpose, which is the row `c` again; so the entry is the inner product of rows `r` and `c`. -/
theorem sim_at (x : (⟨S8192x512, .f32⟩ : BufTy).Contents (Elt Ideal)) (r c : Fin 8192) :
    Read.val_main_v6 (F := Ideal) x (ix2 r c) = Cert.Contrastive.sim (xnR x) r c := by
  rw [Read.val_main_v6_apply]
  unfold Cert.Contrastive.sim xnR
  refine Finset.sum_congr rfl fun k _ => ?_
  rw [Read.val_main_v5_apply]
  have e1 : Read.lidx_main_v6 (ix2 r c) k = ix2 r k :=
    funext fun a => Fin.ext (by match a with | ⟨0, _⟩ => rfl | ⟨1, _⟩ => rfl)
  have e2 : Read.idx_main_v5 (Read.ridx_main_v6 (ix2 r c) k) = ix2 c k :=
    funext fun a => Fin.ext (by match a with | ⟨0, _⟩ => rfl | ⟨1, _⟩ => rfl)
  rw [e1, e2]

/-- The label comparison at (`r`, `c`): the row-broadcast labels read the label of `c`, the column-broadcast ones
    that of `r`. -/
theorem mask_at (l : (⟨S8192, .i32⟩ : BufTy).Contents (Elt Ideal)) (r c : Fin 8192) :
    Read.val_main_v11 (F := Ideal) l (ix2 r c) = Scalar.cmpi .eq (l (ix1 r)) (l (ix1 c)) := by
  rw [Read.val_main_v11_apply, Read.val_main_v9_apply, Read.val_main_v10_apply, Read.val_main_v7_apply,
    Read.val_main_v8_apply]
  have e1 : Read.idx_main_v7 (Read.idx_main_v9 (ix2 r c)) = ix1 c :=
    funext fun a => Fin.ext (by match a with | ⟨0, _⟩ => rfl)
  have e2 : Read.idx_main_v8 (Read.idx_main_v10 (ix2 r c)) = ix1 r :=
    funext fun a => Fin.ext (by match a with | ⟨0, _⟩ => rfl)
  rw [e1, e2]
  exact cmpi_eq_comm _ _

/-- The cost matrix at (`r`, `c`) is the specification's pair cost. -/
theorem loss_at (x : (⟨S8192x512, .f32⟩ : BufTy).Contents (Elt Ideal)) (l : (⟨S8192, .i32⟩ : BufTy).Contents (Elt Ideal))
    (r c : Fin 8192) :
    Read.val_main_v22 (F := Ideal) x l (ix2 r c) = Cert.Contrastive.loss (xnR x) l r c := by
  rw [Read.val_main_v22_apply, Read.val_main_v15_apply, Read.val_main_v21_apply, mask_at,
    Read.val_main_v14_apply, Read.val_main_v13_apply, Read.val_main_v12_apply, Read.val_main_cst_0_apply,
    Read.val_main_call1_v1_apply, Read.val_main_call1_v0_apply, Read.val_main_cst_1_apply,
    Read.val_main_call2_v1_apply, Read.val_main_call2_v0_apply, Read.val_main_cst_4_apply,
    Read.val_main_v20_apply, Read.val_main_v19_apply, Read.val_main_v17_apply, Read.val_main_v16_apply,
    Read.val_main_cst_2_apply, Read.val_main_v18_apply, Read.val_main_cst_3_apply, sim_at]
  rfl

/-- The reference's result: the sum of the cost matrix over both axes, started from the zero word, divided by the
    number of pairs. -/
theorem ref_result (x : (⟨S8192x512, .f32⟩ : BufTy).Contents (Elt Ideal)) (l : (⟨S8192, .i32⟩ : BufTy).Contents (Elt Ideal)) :
    Read.val_main_v24 (F := Ideal) x l = fun _ => Cert.Contrastive.result (xnR x) l := by
  funext i
  rw [Read.val_main_v24_apply, Read.val_main_v23_apply, Read.val_main_cst_6_apply, Read.val_main_cst_5_apply,
    sum_idx2]
  unfold Cert.Contrastive.result Cert.Contrastive.total
  simp only [loss_at]
  rfl

end Cert.ReferenceIdeal.RefValue

end
-- ==== Proof.lean ====
/-
  The certificate: a contrastive loss over all ordered pairs of 8192 normalized rows, computed by a kernel that walks
  an 8 x 8 grid of 1024 x 1024 tiles keeping a running total per tile-row, against the plain reference that forms the
  whole 8192 x 8192 cost matrix and takes its mean.

  Frames: the kernel program (read at words and read at extended reals) runs to the end and leaves its two arguments
  as launched — its one kernel region's body is run symbolically in its three control cases, and the launch holds the
  array that two input windows share at the two halves of the full share; the reference is host operations only.
  Equivalence at the extended reals: both results are the specification's mean cost of the same normalized matrix and
  labels. The kernel adds the costs tile by tile, row of tiles by row of tiles; the reference adds them in one sum;
  addition of extended reals is commutative and associative, so the two totals agree (no finiteness is needed).
  The idealization rewrote nothing, so the preservation claim is trivial.
-/
import proofs.«166555_j42846593744919_1_alg».proof.Defs
import proofs.«166555_j42846593744919_1_alg».proof.Proof.Gen.Kernel
import proofs.«166555_j42846593744919_1_alg».proof.Proof.Gen.KernelIdeal
import proofs.«166555_j42846593744919_1_alg».proof.Proof.Gen.ReferenceIdeal
import proofs.«166555_j42846593744919_1_alg».proof.Proof.Gen.Pre_finite_inputs
import proofs.«166555_j42846593744919_1_alg».proof.Proof.Gen.ReferenceIdeal.Run
import proofs.«166555_j42846593744919_1_alg».proof.Proof.Gen.ReferenceIdeal.Read
import proofs.«166555_j42846593744919_1_alg».proof.Proof.Kernel.FrameEnd
import proofs.«166555_j42846593744919_1_alg».proof.Proof.KernelIdeal.FrameEnd
import proofs.«166555_j42846593744919_1_alg».proof.Proof.KernelIdeal.KernelValue
import proofs.«166555_j42846593744919_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's normalized matrix (rounded to a narrower format, which at the extended reals is the identity)
    is the reference's, as functions of the input. -/
theorem xn_eq (x : (⟨Cert.KernelIdeal.S8192x512, .f32⟩ : BufTy).Contents (Elt Ideal)) :
    (Cert.KernelIdeal.Hand.xnK (F := Ideal) x : Cert.Contrastive.Mat) = Cert.ReferenceIdeal.RefValue.xnR x := by
  funext i
  rfl

theorem algebraic : Cert.algebraic_KernelIdeal_ReferenceIdeal := by
  intro m ρ m' ρ' _ hagree
  refine ⟨fun c => fun _ => Cert.Contrastive.result (Cert.KernelIdeal.Hand.xnA m c) (Cert.KernelIdeal.Hand.labA m c), ?_, ?_⟩
  · exact (θ_run Cert.KernelIdeal.defs _ _).mono (fun _ h c =>
      ⟨(h c Cert.KernelIdeal.main_v12 Cert.KernelIdeal.Hand.v12_rest).trans (Cert.KernelIdeal.Hand.kernel_result m c),
       (h c Cert.KernelIdeal.main_arg0 Cert.KernelIdeal.Hand.arg0_rest).trans (Cert.KernelIdeal.Hand.Wfin_arg0 m (Cert.KernelIdeal.Hand.dats m) c),
       (h c Cert.KernelIdeal.main_arg1 Cert.KernelIdeal.Hand.arg1_rest).trans (Cert.KernelIdeal.Hand.Wfin_arg1 m (Cert.KernelIdeal.Hand.dats m) c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, Cert.ReferenceIdeal.RefValue.ref_result, (hagree c).1, (hagree c).2]
    funext _
    dsimp only [Cert.KernelIdeal.Hand.xnA, Cert.KernelIdeal.Hand.labA]
    rw [Cert.KernelIdeal.Hand.V_main_v5, xn_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
